-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S100000 : Shape := ⟨1, ![100000]⟩
abbrev S740000 : Shape := ⟨1, ![740000]⟩
abbrev S_ : Shape := ⟨0, ![]⟩
abbrev S740000x1 : Shape := ⟨2, ![740000, 1]⟩
abbrev S5000x128 : Shape := ⟨2, ![5000, 128]⟩
abbrev S740000x128 : Shape := ⟨2, ![740000, 128]⟩
abbrev S1x128 : Shape := ⟨2, ![1, 128]⟩
abbrev S100000x64 : Shape := ⟨2, ![100000, 64]⟩
abbrev S5000x64 : Shape := ⟨2, ![5000, 64]⟩
abbrev S740000x64 : Shape := ⟨2, ![740000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 83
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S100000, .i32⟩
  | .hbm, ⟨11, _⟩ => ⟨S740000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S740000, .i32⟩
  | .hbm, ⟨28, _⟩ => ⟨S740000, .i1⟩
  | .hbm, ⟨29, _⟩ => ⟨S_, .i32⟩
  | .hbm, ⟨30, _⟩ => ⟨S740000, .i32⟩
  | .hbm, ⟨31, _⟩ => ⟨S740000, .i32⟩
  | .hbm, ⟨32, _⟩ => ⟨S740000, .i32⟩
  | .hbm, ⟨33, _⟩ => ⟨S740000x1, .i32⟩
  | .hbm, ⟨34, _⟩ => ⟨S740000, .f32⟩
  | .hbm, ⟨35, _⟩ => ⟨S_, .i32⟩
  | .hbm, ⟨36, _⟩ => ⟨S740000, .i32⟩
  | .hbm, ⟨37, _⟩ => ⟨S740000, .i1⟩
  | .hbm, ⟨38, _⟩ => ⟨S_, .i32⟩
  | .hbm, ⟨39, _⟩ => ⟨S740000, .i32⟩
  | .hbm, ⟨40, _⟩ => ⟨S740000, .i32⟩
  | .hbm, ⟨41, _⟩ => ⟨S740000, .i32⟩
  | .hbm, ⟨42, _⟩ => ⟨S740000x1, .i32⟩
  | .hbm, ⟨43, _⟩ => ⟨S740000, .f32⟩
  | .hbm, ⟨44, _⟩ => ⟨S740000, .f32⟩
  | .hbm, ⟨45, _⟩ => ⟨S100000x128, .f32⟩
  | .hbm, ⟨46, _⟩ => ⟨S_, .i32⟩
  | .hbm, ⟨47, _⟩ => ⟨S740000, .i32⟩
  | .hbm, ⟨48, _⟩ => ⟨S740000, .i1⟩
  | .hbm, ⟨49, _⟩ => ⟨S_, .i32⟩
  | .hbm, ⟨50, _⟩ => ⟨S740000, .i32⟩
  | .hbm, ⟨51, _⟩ => ⟨S740000, .i32⟩
  | .hbm, ⟨52, _⟩ => ⟨S740000, .i32⟩
  | .hbm, ⟨53, _⟩ => ⟨S740000x1, .i32⟩
  | .hbm, ⟨54, _⟩ => ⟨S740000x128, .f32⟩
  | .hbm, ⟨55, _⟩ => ⟨S740000x1, .f32⟩
  | .hbm, ⟨56, _⟩ => ⟨S740000x128, .f32⟩
  | .hbm, ⟨57, _⟩ => ⟨S740000x128, .f32⟩
  | .hbm, ⟨58, _⟩ => ⟨S_, .f32⟩
  | .hbm, ⟨59, _⟩ => ⟨S100000x128, .f32⟩
  | .hbm, ⟨60, _⟩ => ⟨S740000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x64, .f32⟩
  | .hbm, ⟨65, _⟩ => ⟨S_, .i32⟩
  | .hbm, ⟨66, _⟩ => ⟨S740000, .i32⟩
  | .hbm, ⟨67, _⟩ => ⟨S740000, .i1⟩
  | .hbm, ⟨68, _⟩ => ⟨S_, .i32⟩
  | .hbm, ⟨69, _⟩ => ⟨S740000, .i32⟩
  | .hbm, ⟨70, _⟩ => ⟨S740000, .i32⟩
  | .hbm, ⟨71, _⟩ => ⟨S740000, .i32⟩
  | .hbm, ⟨72, _⟩ => ⟨S740000x1, .i32⟩
  | .hbm, ⟨73, _⟩ => ⟨S740000x64, .f32⟩
  | .hbm, ⟨74, _⟩ => ⟨S740000x1, .f32⟩
  | .hbm, ⟨75, _⟩ => ⟨S740000x64, .f32⟩
  | .hbm, ⟨76, _⟩ => ⟨S740000x64, .f32⟩
  | .hbm, ⟨77, _⟩ => ⟨S_, .f32⟩
  | .hbm, ⟨78, _⟩ => ⟨S100000x64, .f32⟩
  | .hbm, ⟨79, _⟩ => ⟨S740000x1, .i32⟩
  | .hbm, ⟨80, _⟩ => ⟨S100000x64, .f32⟩
  | .hbm, ⟨81, _⟩ => ⟨S1x64, .f32⟩
  | .hbm, ⟨82, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x128_S128x128_S5000x128_1_0_0_1_n_n_wf : DotDims.WF S5000x128 S128x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S5000x128_S128x64_S5000x64_1_0_0_1_n_n_wf : DotDims.WF S5000x128 S128x64 S5000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S100000x64 : Shape := ⟨2, ![100000, 64]⟩
abbrev S740000x64 : Shape := ⟨2, ![740000, 64]⟩
abbrev S1x64 : Shape := ⟨2, ![1, 64]⟩
abbrev S100000x1 : Shape := ⟨2, ![100000, 1]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S2x640000, .i32⟩
  | 2 => ⟨S128x128, .f32⟩
  | 3 => ⟨S128, .f32⟩
  | 4 => ⟨S128x64, .f32⟩
  | 5 => ⟨S64, .f32⟩
  | 6 => ⟨S100000x128, .f32⟩
  | 7 => ⟨S100000, .i32⟩
  | 8 => ⟨S1x640000, .i32⟩
  | 9 => ⟨S640000, .i32⟩
  | 10 => ⟨S740000, .i32⟩
  | 11 => ⟨S1x640000, .i32⟩
  | 12 => ⟨S640000, .i32⟩
  | 13 => ⟨S740000, .i32⟩
  | 14 => ⟨S_, .f32⟩
  | 15 => ⟨S740000, .f32⟩
  | 16 => ⟨S_, .f32⟩
  | 17 => ⟨S100000, .f32⟩
  | 18 => ⟨S740000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S100000, .f32⟩
  | 26 => ⟨S100000, .f32⟩
  | 27 => ⟨S_, .i32⟩
  | 28 => ⟨S740000, .i32⟩
  | 29 => ⟨S740000, .i1⟩
  | 30 => ⟨S_, .i32⟩
  | 31 => ⟨S740000, .i32⟩
  | 32 => ⟨S740000, .i32⟩
  | 33 => ⟨S740000, .i32⟩
  | 34 => ⟨S740000x1, .i32⟩
  | 35 => ⟨S740000, .f32⟩
  | 36 => ⟨S_, .i32⟩
  | 37 => ⟨S740000, .i32⟩
  | 38 => ⟨S740000, .i1⟩
  | 39 => ⟨S_, .i32⟩
  | 40 => ⟨S740000, .i32⟩
  | 41 => ⟨S740000, .i32⟩
  | 42 => ⟨S740000, .i32⟩
  | 43 => ⟨S740000x1, .i32⟩
  | 44 => ⟨S740000, .f32⟩
  | 45 => ⟨S740000, .f32⟩
  | 46 => ⟨S_, .i32⟩
  | 47 => ⟨S740000, .i32⟩
  | 48 => ⟨S740000, .i1⟩
  | 49 => ⟨S_, .i32⟩
  | 50 => ⟨S740000, .i32⟩
  | 51 => ⟨S740000, .i32⟩
  | 52 => ⟨S740000, .i32⟩
  | 53 => ⟨S740000x1, .i32⟩
  | 54 => ⟨S740000x128, .f32⟩
  | 55 => ⟨S740000x1, .f32⟩
  | 56 => ⟨S740000x128, .f32⟩
  | 57 => ⟨S740000x128, .f32⟩
  | 58 => ⟨S_, .f32⟩
  | 59 => ⟨S100000x128, .f32⟩
  | 60 => ⟨S740000x1, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x64, .f32⟩
  | 69 => ⟨S100000, .i32⟩
  | 70 => ⟨S1x640000, .i32⟩
  | 71 => ⟨S640000, .i32⟩
  | 72 => ⟨S740000, .i32⟩
  | 73 => ⟨S1x640000, .i32⟩
  | 74 => ⟨S640000, .i32⟩
  | 75 => ⟨S740000, .i32⟩
  | 76 => ⟨S_, .f32⟩
  | 77 => ⟨S740000, .f32⟩
  | 78 => ⟨S_, .f32⟩
  | 79 => ⟨S100000, .f32⟩
  | 80 => ⟨S740000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S100000, .f32⟩
  | 88 => ⟨S100000, .f32⟩
  | 89 => ⟨S_, .i32⟩
  | 90 => ⟨S740000, .i32⟩
  | 91 => ⟨S740000, .i1⟩
  | 92 => ⟨S_, .i32⟩
  | 93 => ⟨S740000, .i32⟩
  | 94 => ⟨S740000, .i32⟩
  | 95 => ⟨S740000, .i32⟩
  | 96 => ⟨S740000x1, .i32⟩
  | 97 => ⟨S740000, .f32⟩
  | 98 => ⟨S_, .i32⟩
  | 99 => ⟨S740000, .i32⟩
  | 100 => ⟨S740000, .i1⟩
  | 101 => ⟨S_, .i32⟩
  | 102 => ⟨S740000, .i32⟩
  | 103 => ⟨S740000, .i32⟩
  | 104 => ⟨S740000, .i32⟩
  | 105 => ⟨S740000x1, .i32⟩
  | 106 => ⟨S740000, .f32⟩
  | 107 => ⟨S740000, .f32⟩
  | 108 => ⟨S_, .i32⟩
  | 109 => ⟨S740000, .i32⟩
  | 110 => ⟨S740000, .i1⟩
  | 111 => ⟨S_, .i32⟩
  | 112 => ⟨S740000, .i32⟩
  | 113 => ⟨S740000, .i32⟩
  | 114 => ⟨S740000, .i32⟩
  | 115 => ⟨S740000x1, .i32⟩
  | 116 => ⟨S740000x64, .f32⟩
  | 117 => ⟨S740000x1, .f32⟩
  | 118 => ⟨S740000x64, .f32⟩
  | 119 => ⟨S740000x64, .f32⟩
  | 120 => ⟨S_, .f32⟩
  | 121 => ⟨S100000x64, .f32⟩
  | 122 => ⟨S740000x1, .i32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x64, .f32⟩
  | 6 => ⟨S100000x64, .f32⟩
  | 7 => ⟨S100000x64, .f32⟩
  | 8 => ⟨S_, .f32⟩
  | 9 => ⟨S100000, .f32⟩
  | 10 => ⟨S100000x1, .f32⟩
  | 11 => ⟨S100000x1, .f32⟩
  | 12 => ⟨S100000x64, .f32⟩
  | 13 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_17 : Ref sig .tc := ⟨.hbm, 108, rfl⟩
abbrev main_v81 : Ref sig .tc := ⟨.hbm, 109, rfl⟩
abbrev main_v82 : Ref sig .tc := ⟨.hbm, 110, rfl⟩
abbrev main_c_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_19 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_call3_cst : Ref sig .tc := ⟨.hbm, 127, rfl⟩
abbrev main_call3_v0 : Ref sig .tc := ⟨.hbm, 128, rfl⟩
abbrev main_call3_cst_0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_v6 : Ref sig .tc := ⟨.hbm, 135, rfl⟩
abbrev main_call3_cst_1 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_v97 : Ref sig .tc := ⟨.hbm, 141, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x64_S100000x64_1_0_0_1_n_n_wf : DotDims.WF S100000x128 S128x64 S100000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf

class Facts : Prop extends Facts₀ where

variable [Facts]
-- ==== Proof.Glue.lean ====
/-
  The sparse stage of a graph convolution with self-loops, as functions of the edge list alone or of the edge list and
  a matrix of node rows, in the reference program's own operations (so that the reference's terms are these by
  unfolding). From the 2 × E edge list:

    srcIdx, dstIdx   the E sources (targets) followed by the N self-loop nodes 0 … N-1
    deg              at every node the number of entries of dstIdx that name it (ones added at the targets)
    dinv             1/sqrt(deg) where deg > 0, else 0
    wrap             an index below zero read from the end (add N)
    norm             per edge, dinv at the source times dinv at the target
    spread e h       rows of h gathered at the sources, scaled by norm, added into the rows at the targets

  Nothing here is ever opened by the proof: both programs apply these same operations to equal arguments.
-/
import proofs.«161686_j69956427317969_1_alg».proof.Proof.Gen.ReferenceIdeal

noncomputable section

namespace Cert.Gcn.Glue

open Cert.ReferenceIdeal Cert.ReferenceIdeal.Facts₀ Cert.ReferenceIdeal.Facts Idealize.ShloMosaic

variable {F : FTy → Type} [FloatOps F]

/-- The edge sources followed by the self-loop nodes. -/
def srcIdx (e : (⟨S2x640000, .i32⟩ : BufTy).Contents (Elt F)) : (⟨S740000, .i32⟩ : BufTy).Contents (Elt F) :=
  concatenate S740000 0 [⟨S640000, shapeCast S640000 (extractStridedSlice S1x640000 ![0, 0] e slices_S2x640000_S1x640000_0_0) shapeCasts_S1x640000_S640000⟩, ⟨S100000, iotaInDim S100000 32 0⟩] concatenates_S640000_S100000_S740000_d0

/-- The edge targets followed by the self-loop nodes. -/
def dstIdx (e : (⟨S2x640000, .i32⟩ : BufTy).Contents (Elt F)) : (⟨S740000, .i32⟩ : BufTy).Contents (Elt F) :=
  concatenate S740000 0 [⟨S640000, shapeCast S640000 (extractStridedSlice S1x640000 ![1, 0] e slices_S2x640000_S1x640000_1_0) shapeCasts_S1x640000_S640000⟩, ⟨S100000, iotaInDim S100000 32 0⟩] concatenates_S640000_S100000_S740000_d0

/-- The in-degree of every node, self-loop counted: a one added at each target. -/
def deg (d : (⟨S740000, .i32⟩ : BufTy).Contents (Elt F)) : (⟨S100000, .f32⟩ : BufTy).Contents (Elt F) :=
  Host.scatterAdd scatter_S100000_S740000x1_S740000_n_0_0_1 (broadcastInDim S100000 ![] bcast_S_S100000 (constant S_ .f32 0x00000000#32)) (broadcastInDim S740000x1 ![0] bcast_S740000_S740000x1_0 d) (broadcastInDim S740000 ![] bcast_S_S740000 (constant S_ .f32 0x3F800000#32))

/-- The reciprocal square root of a positive degree, zero at degree zero. -/
def dinv (g : (⟨S100000, .f32⟩ : BufTy).Contents (Elt F)) : (⟨S100000, .f32⟩ : BufTy).Contents (Elt F) :=
  select (cmpf .ogt g (broadcastInDim S100000 ![] bcast_S_S100000 (constant S_ .f32 0x00000000#32))) (Host.rsqrt g) (broadcastInDim S100000 ![] bcast_S_S100000 (constant S_ .f32 0x00000000#32))

/-- A negative index counted from the end. -/
def wrap (i : (⟨S740000, .i32⟩ : BufTy).Contents (Elt F)) : (⟨S740000, .i32⟩ : BufTy).Contents (Elt F) :=
  select (cmpi .slt i (broadcastInDim S740000 ![] bcast_S_S740000 (constantI S_ 32 0#32))) (addi i (broadcastInDim S740000 ![] bcast_S_S740000 (constantI S_ 32 100000#32))) i

/-- A per-node quantity read at every entry of an index list. -/
def pick (v : (⟨S100000, .f32⟩ : BufTy).Contents (Elt F)) (i : (⟨S740000, .i32⟩ : BufTy).Contents (Elt F)) : (⟨S740000, .f32⟩ : BufTy).Contents (Elt F) :=
  Host.gather gather_S100000_S740000x1_S740000_n_0_n_n_0_1_1 v (broadcastInDim S740000x1 ![0] bcast_S740000_S740000x1_0 (wrap i))

/-- The symmetric normalisation of every edge. -/
def norm (s d : (⟨S740000, .i32⟩ : BufTy).Contents (Elt F)) : (⟨S740000, .f32⟩ : BufTy).Contents (Elt F) :=
  mulf (pick (dinv (deg d)) s) (pick (dinv (deg d)) d)

/-- Rows of width 128 gathered at the sources, scaled per edge, added at the targets. -/
def spread128 (s d : (⟨S740000, .i32⟩ : BufTy).Contents (Elt F)) (w : (⟨S740000, .f32⟩ : BufTy).Contents (Elt F))
    (h : (⟨S100000x128, .f32⟩ : BufTy).Contents (Elt F)) : (⟨S100000x128, .f32⟩ : BufTy).Contents (Elt F) :=
  Host.scatterAdd scatter_S100000x128_S740000x1_S740000x128_1_0_0_1 (broadcastInDim S100000x128 ![] bcast_S_S100000x128 (constant S_ .f32 0x00000000#32)) (broadcastInDim S740000x1 ![0] bcast_S740000_S740000x1_0 d)
    (mulf (Host.gather gather_S100000x128_S740000x1_S740000x128_1_0_n_n_0_1_1128 h (broadcastInDim S740000x1 ![0] bcast_S740000_S740000x1_0 (wrap s)))
      (broadcastInDim S740000x128 ![0, 1] bcast_S740000x1_S740000x128_0_1 (broadcastInDim S740000x1 ![0] bcast_S740000_S740000x1_0 w)))

/-- Rows of width 64 gathered at the sources, scaled per edge, added at the targets. -/
def spread64 (s d : (⟨S740000, .i32⟩ : BufTy).Contents (Elt F)) (w : (⟨S740000, .f32⟩ : BufTy).Contents (Elt F))
    (h : (⟨S100000x64, .f32⟩ : BufTy).Contents (Elt F)) : (⟨S100000x64, .f32⟩ : BufTy).Contents (Elt F) :=
  Host.scatterAdd scatter_S100000x64_S740000x1_S740000x64_1_0_0_1 (broadcastInDim S100000x64 ![] bcast_S_S100000x64 (constant S_ .f32 0x00000000#32)) (broadcastInDim S740000x1 ![0] bcast_S740000_S740000x1_0 d)
    (mulf (Host.gather gather_S100000x64_S740000x1_S740000x64_1_0_n_n_0_1_164 h (broadcastInDim S740000x1 ![0] bcast_S740000_S740000x1_0 (wrap s)))
      (broadcastInDim S740000x64 ![0, 1] bcast_S740000x1_S740000x64_0_1 (broadcastInDim S740000x1 ![0] bcast_S740000_S740000x1_0 w)))

end Cert.Gcn.Glue

end
-- ==== Proof.KernelChain.lean ====
/-
  The kernel program's buffers at the boundaries of its run, read as functions of the six arguments.

  The program is: host operations that build the edge lists and the edge normalisation; the first product (region 0);
  the sparse stage; bias and positive part (region 1); the second product (region 2); the sparse stage again; bias and
  the logarithm of the row softmax (region 3). Each host stretch applies to the values it finds the very operations the
  reference applies, so each buffer it writes is the shared function of those values; each region's output array is its
  dense stage of the arrays it finds; an array no later step writes keeps its contents to the end.
-/
import proofs.«161686_j69956427317969_1_alg».proof.Proof.Gen.KernelIdeal.Frame
import proofs.«161686_j69956427317969_1_alg».proof.Proof.Glue
import Idealize.ShloMosaic.Lib.StableHlo.Run

set_option quotPrecheck false
set_option maxRecDepth 16384

noncomputable section

namespace Cert.Gcn.KernelChain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The reads of a fold of host operations that sit inside the operand list of a concatenation, rewritten one operation at
    a time: an operation's own buffer reads the operation's value, any other buffer what was there before. -/
macro "results_rw" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-! ## Before region 0: the edge lists and the edge normalisation -/

/-- The source list, when region 0 is entered. -/
theorem src_W3 (c : Dev nD) :
    W3 m ρ c (Proc.devRef .tc main_v5) = Cert.Gcn.Glue.srcIdx (m ((c : Thread nD τ).loc main_arg1)) := by
  show StableHlo.after hostOps0_2 (StableHlo.after hostOps0_1 (StableHlo.after hostOps0 (W0 m ρ c))) (Proc.devRef .tc main_v5) = _
  simp only [hostOps0, hostOps0_1, hostOps0_2]
  after_results
  rfl

/-- The target list, when region 0 is entered. -/
theorem dst_W3 (c : Dev nD) :
    W3 m ρ c (Proc.devRef .tc main_v6) = Cert.Gcn.Glue.dstIdx (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results
  rfl

set_option maxHeartbeats 2000000 in
/-- The edge normalisation, when region 0 is entered. -/
theorem norm_W3 (c : Dev nD) :
    W3 m ρ c (Proc.devRef .tc main_v30)
      = Cert.Gcn.Glue.norm (Cert.Gcn.Glue.srcIdx (m ((c : Thread nD τ).loc main_arg1))) (Cert.Gcn.Glue.dstIdx (m ((c : Thread nD τ).loc main_arg1))) := by
  show StableHlo.after hostOps0_2 (StableHlo.after hostOps0_1 (StableHlo.after hostOps0 (W0 m ρ c))) (Proc.devRef .tc main_v30) = _
  simp only [hostOps0, hostOps0_1, hostOps0_2]
  after_results_simp
  results_rw
  simp only [TRef.ofBuf, TRef.toBuf, cast_eq]
  rfl

/-- An argument array is as launched when region 0 is entered: no host operation writes it. -/
theorem arg0_W3 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp
theorem arg2_W3 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results_simp
theorem arg3_W3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp
theorem arg4_W3 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp
theorem arg5_W3 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp

/-! ## Between regions 0 and 1: the sparse stage at width 128, and the bias as one row -/

/-- From any contents, the stretch leaves in main_v44 the rows at main_v31 gathered at the sources, scaled, added at the targets. -/
theorem spread_hostOps1 (V : Valuation τ sig (Elt F)) :
    StableHlo.after hostOps1 V (Proc.devRef .tc main_v44)
      = Cert.Gcn.Glue.spread128 (V (Proc.devRef .tc main_v5)) (V (Proc.devRef .tc main_v6)) (V (Proc.devRef .tc main_v30))
          (V (Proc.devRef .tc main_v31)) := by
  simp only [hostOps1]
  after_results_simp
  rfl

/-- From any contents, the stretch leaves in main_v45 the first bias as a one-row matrix. -/
theorem bias_hostOps1 (V : Valuation τ sig (Elt F)) :
    StableHlo.after hostOps1 V (Proc.devRef .tc main_v45)
      = shapeCast S1x128 (V (Proc.devRef .tc main_arg3)) Cert.KernelIdeal.Facts₀.shapeCasts_S128_S1x128 := by
  simp only [hostOps1]
  after_results_simp
  rfl

/-- The stretch writes none of the buffers later steps still read. -/
theorem keep_hostOps1 (V : Valuation τ sig (Elt F)) :
    StableHlo.after hostOps1 V (Proc.devRef .tc main_v5) = V (Proc.devRef .tc main_v5)
    ∧ StableHlo.after hostOps1 V (Proc.devRef .tc main_v6) = V (Proc.devRef .tc main_v6)
    ∧ StableHlo.after hostOps1 V (Proc.devRef .tc main_v30) = V (Proc.devRef .tc main_v30)
    ∧ StableHlo.after hostOps1 V (Proc.devRef .tc main_arg4) = V (Proc.devRef .tc main_arg4)
    ∧ StableHlo.after hostOps1 V (Proc.devRef .tc main_arg5) = V (Proc.devRef .tc main_arg5) := by
  simp only [hostOps1]
  refine ⟨?_, ?_, ?_, ?_, ?_⟩ <;> after_results_simp

/-! ## Between regions 2 and 3: the sparse stage at width 64, and the bias as one row -/

/-- From any contents, the stretch leaves in main_v60 the rows at main_v47 gathered at the sources, scaled, added at the targets. -/
theorem spread_hostOps3 (V : Valuation τ sig (Elt F)) :
    StableHlo.after hostOps3 V (Proc.devRef .tc main_v60)
      = Cert.Gcn.Glue.spread64 (V (Proc.devRef .tc main_v5)) (V (Proc.devRef .tc main_v6)) (V (Proc.devRef .tc main_v30))
          (V (Proc.devRef .tc main_v47)) := by
  simp only [hostOps3]
  after_results_simp
  rfl

/-- From any contents, the stretch leaves in main_v61 the second bias as a one-row matrix. -/
theorem bias_hostOps3 (V : Valuation τ sig (Elt F)) :
    StableHlo.after hostOps3 V (Proc.devRef .tc main_v61)
      = shapeCast S1x64 (V (Proc.devRef .tc main_arg5)) Cert.KernelIdeal.Facts₀.shapeCasts_S64_S1x64 := by
  simp only [hostOps3]
  after_results_simp
  rfl

/-! ## What is kept across the regions and the stretch between them

A region writes only its own output array, and the stretch after region 0 writes none of these buffers, so the edge
lists, the edge normalisation and the later arguments are at every later boundary what they were when region 0 was entered. -/

section Kept
variable (c : Dev nD)

local notation "edges" => m ((c : Thread nD τ).loc main_arg1)

theorem src_W4 : W4 m ρ c (Proc.devRef .tc main_v5) = Cert.Gcn.Glue.srcIdx edges :=
  (W4_of_ne m ρ c main_v5 (by decide)).trans (src_W3 m ρ c)
theorem dst_W4 : W4 m ρ c (Proc.devRef .tc main_v6) = Cert.Gcn.Glue.dstIdx edges :=
  (W4_of_ne m ρ c main_v6 (by decide)).trans (dst_W3 m ρ c)
theorem norm_W4 : W4 m ρ c (Proc.devRef .tc main_v30) = Cert.Gcn.Glue.norm (Cert.Gcn.Glue.srcIdx edges) (Cert.Gcn.Glue.dstIdx edges) :=
  (W4_of_ne m ρ c main_v30 (by decide)).trans (norm_W3 m ρ c)
theorem arg3_W4 : W4 m ρ c (Proc.devRef .tc main_arg3) = m ((c : Thread nD τ).loc main_arg3) :=
  (W4_of_ne m ρ c main_arg3 (by decide)).trans (arg3_W3 m ρ c)
theorem arg4_W4 : W4 m ρ c (Proc.devRef .tc main_arg4) = m ((c : Thread nD τ).loc main_arg4) :=
  (W4_of_ne m ρ c main_arg4 (by decide)).trans (arg4_W3 m ρ c)
theorem arg5_W4 : W4 m ρ c (Proc.devRef .tc main_arg5) = m ((c : Thread nD τ).loc main_arg5) :=
  (W4_of_ne m ρ c main_arg5 (by decide)).trans (arg5_W3 m ρ c)

theorem src_W7 : W7 m ρ c (Proc.devRef .tc main_v5) = Cert.Gcn.Glue.srcIdx edges :=
  (W7_of_ne m ρ c main_v5 (by decide)).trans ((W6_of_ne m ρ c main_v5 (by decide)).trans
    ((keep_hostOps1 (W4 m ρ c)).1.trans (src_W4 m ρ c)))
theorem dst_W7 : W7 m ρ c (Proc.devRef .tc main_v6) = Cert.Gcn.Glue.dstIdx edges :=
  (W7_of_ne m ρ c main_v6 (by decide)).trans ((W6_of_ne m ρ c main_v6 (by decide)).trans
    ((keep_hostOps1 (W4 m ρ c)).2.1.trans (dst_W4 m ρ c)))
theorem norm_W7 : W7 m ρ c (Proc.devRef .tc main_v30) = Cert.Gcn.Glue.norm (Cert.Gcn.Glue.srcIdx edges) (Cert.Gcn.Glue.dstIdx edges) :=
  (W7_of_ne m ρ c main_v30 (by decide)).trans ((W6_of_ne m ρ c main_v30 (by decide)).trans
    ((keep_hostOps1 (W4 m ρ c)).2.2.1.trans (norm_W4 m ρ c)))
theorem arg4_W6 : W6 m ρ c (Proc.devRef .tc main_arg4) = m ((c : Thread nD τ).loc main_arg4) :=
  (W6_of_ne m ρ c main_arg4 (by decide)).trans ((keep_hostOps1 (W4 m ρ c)).2.2.2.1.trans (arg4_W4 m ρ c))
theorem arg5_W7 : W7 m ρ c (Proc.devRef .tc main_arg5) = m ((c : Thread nD τ).loc main_arg5) :=
  (W7_of_ne m ρ c main_arg5 (by decide)).trans ((W6_of_ne m ρ c main_arg5 (by decide)).trans
    ((keep_hostOps1 (W4 m ρ c)).2.2.2.2.trans (arg5_W4 m ρ c)))

end Kept

end Cert.Gcn.KernelChain

end
-- ==== Proof.LibLogSoftmaxRow.lean ====
/-
  The logarithm of a softmax along a row, over the extended reals, as one function of the row: every entry less the
  row's maximum, less the logarithm of the sum of the exponentials of the entries so shifted. The maximum is taken as a
  fold of max from the value of the f32 pattern of -∞ (which is ⊥, so the fold is the row's supremum).
-/
import Idealize.ShloMosaic.PureOps.Ideal
import Mathlib.Data.Finset.Fold

noncomputable section

open Idealize.ShloMosaic

namespace Cert.LibLogSoftmaxRow

/-- The f32 pattern of -∞ is the bottom extended real. -/
theorem ofBits_neg_inf : Ideal.ofBits .f32 0xFF800000#32 = (⊥ : EReal) := by simp [Ideal.ofBits, Ideal.ieee]

/-- A row's maximum: max folded over the row from the value of the pattern of -∞. -/
def rowMax {N : ℕ} (z : Fin N → EReal) : EReal :=
  (Finset.univ : Finset (Fin N)).fold max (Ideal.ofBits .f32 0xFF800000#32) z

/-- Taking the maximum with -∞ once more changes nothing. -/
theorem max_neg_inf_rowMax {N : ℕ} (z : Fin N → EReal) : max (Ideal.ofBits .f32 0xFF800000#32) (rowMax z) = rowMax z := by
  rw [ofBits_neg_inf]; exact max_eq_right bot_le

/-- Entry j of the logarithm of the softmax of the row z. -/
def logSoftmaxRow {N : ℕ} (z : Fin N → EReal) (j : Fin N) : EReal :=
  (z j - rowMax z) - Ideal.log (∑ c : Fin N, Ideal.exp (z c - rowMax z))

end Cert.LibLogSoftmaxRow

end
-- ==== Proof.Spec.lean ====
/-
  The four dense stages of a two-layer graph convolution, each as one function of whole arrays over the extended reals,
  read entry by entry:

    dense x w        row r, column j:  the sum over k of x(r, k) · w(k, j)
    addRow a b       row r, column j:  a(r, j) + b(0, j), the one-row matrix b laid along every row
    relu z           entry by entry:   max(z, 0)
    logSoftmaxRows z row r, column j:  z(r, j) less the maximum of row r, less the logarithm of the sum over the row of
                                       the exponentials of the entries so shifted

  The sparse stage between them (gather the rows at the edge sources, scale by the edge weights, add into the rows at
  the edge targets) is the same text on both sides of the claim and is never opened.
-/
import Idealize.ShloMosaic.PureOps.Ideal.Laws
import Idealize.ShloMosaic.Lib.ValueIdx
import proofs.«161686_j69956427317969_1_alg».proof.Proof.LibLogSoftmaxRow

noncomputable section

open scoped BigOperators
open Idealize.ShloMosaic Idealize.ShloMosaic.ValueIdx

namespace Cert.Gcn

variable {N K D : ℕ}

/-- The product of an N × K matrix by a K × D matrix. -/
def dense (x : FVec Ideal ⟨2, ![N, K]⟩ .f32) (w : FVec Ideal ⟨2, ![K, D]⟩ .f32) : FVec Ideal ⟨2, ![N, D]⟩ .f32 :=
  fun i => ∑ k : Fin K, x (ix2 (i 0 : Fin N) k) * w (ix2 k (i 1 : Fin D))

theorem dense_apply (x : FVec Ideal ⟨2, ![N, K]⟩ .f32) (w : FVec Ideal ⟨2, ![K, D]⟩ .f32) (r : Fin N) (j : Fin D) :
    dense x w (ix2 r j) = ∑ k : Fin K, x (ix2 r k) * w (ix2 k j) := rfl

/-- A one-row matrix added to every row. -/
def addRow (a : FVec Ideal ⟨2, ![N, D]⟩ .f32) (b : FVec Ideal ⟨2, ![1, D]⟩ .f32) : FVec Ideal ⟨2, ![N, D]⟩ .f32 :=
  fun i => a i + b (ix2 (0 : Fin 1) (i 1 : Fin D))

theorem addRow_apply (a : FVec Ideal ⟨2, ![N, D]⟩ .f32) (b : FVec Ideal ⟨2, ![1, D]⟩ .f32) (r : Fin N) (j : Fin D) :
    addRow a b (ix2 r j) = a (ix2 r j) + b (ix2 (0 : Fin 1) j) := rfl

/-- The positive part, entry by entry. -/
def relu (z : FVec Ideal ⟨2, ![N, D]⟩ .f32) : FVec Ideal ⟨2, ![N, D]⟩ .f32 := fun i => max (z i) 0

theorem relu_apply (z : FVec Ideal ⟨2, ![N, D]⟩ .f32) (i : (⟨2, ![N, D]⟩ : Shape).Idx) : relu z i = max (z i) 0 := rfl

/-- The logarithm of the softmax of every row. -/
def logSoftmaxRows (z : FVec Ideal ⟨2, ![N, D]⟩ .f32) : FVec Ideal ⟨2, ![N, D]⟩ .f32 :=
  fun i => Cert.LibLogSoftmaxRow.logSoftmaxRow (fun c : Fin D => z (ix2 (i 0 : Fin N) c)) (i 1 : Fin D)

theorem logSoftmaxRows_apply (z : FVec Ideal ⟨2, ![N, D]⟩ .f32) (r : Fin N) (j : Fin D) :
    logSoftmaxRows z (ix2 r j) = Cert.LibLogSoftmaxRow.logSoftmaxRow (fun c : Fin D => z (ix2 r c)) j := rfl

end Cert.Gcn

end
-- ==== Proof.Region0.lean ====
/-
  Region 0: the product of a 100000 × 128 matrix by a 128 × 128 matrix, computed 5000 rows at a time.

  At grid point t (t = 0, …, 19) the body reads rows 5000·t … 5000·t + 4999 of the left matrix and the whole right
  matrix, multiplies them (both operands cut to the shorter float format, which over the extended reals
  changes nothing; the product is added into a matrix of zeros, which adds nothing), and writes the 5000 × 128 result over rows
  5000·t … 5000·t + 4999 of the output. The twenty row-blocks are disjoint and fill the 100000 rows, so after the last
  point the output holds, at row r and column j, the sum over k of x(r, k) · w(k, j).
-/
import proofs.«161686_j69956427317969_1_alg».proof.Proof.Gen.KernelIdeal.Frame
import proofs.«161686_j69956427317969_1_alg».proof.Proof.Spec
import Idealize.ShloMosaic.Lib.Pipeline.Value
import Idealize.ShloMosaic.Lib.KernelVsHost
import Idealize.ShloMosaic.Lib.StackMember

noncomputable section

namespace Cert.Gcn.Region0

open Cert.KernelIdeal Cert.KernelIdeal.Gen Idealize.ShloMosaic Idealize.ShloMosaic.TcCoe Idealize.SL.Sem
open Idealize.ShloMosaic.ValueIdx
open scoped BigOperators
open Idealize.ShloMosaic.Pipeline (Dat Cfg Window)

variable (V : (c : Dev nD) → (b : Ref sig .tc) → Buf (Elt Ideal) ((c : Thread nD τ).loc b))

/-! ## The body's result at an entry -/

/-- The body's result at row p, column q of the block: the sum over k of x(p, k) · w(k, q). Cutting to the shorter
    format is the identity on the extended reals, a product accumulated into zeros is the plain product, and the
    printed contraction (left axis 1 against right axis 0) is the plain one. -/
theorem blockProduct_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  show matmul dot_S5000x128_S128x128_S5000x128_1_0_0_1_n_n none
      (truncf .bf16 x bitsLt_bf16_f32) (truncf .bf16 w bitsLt_bf16_f32)
      (constant (F := Ideal) S5000x128 .f32 0x00000000#32) (ix2 p q) = _
  rw [matmul_zero_eq_dotGeneral]
  rw [show (dot_S5000x128_S128x128_S5000x128_1_0_0_1_n_n : DotDims S5000x128 S128x128 S5000x128)
      = DotDims.plain 5000 128 128 from rfl]
  rw [StackMember.dotGeneral_plain_apply]
  rfl

/-- If row p of the block x is row r of the matrix X, and column q of w is column q of W, then the body's result at
    (p, q) is the product X · W at (r, q). -/
theorem blockProduct_eq_dense (X : FVec Ideal S100000x128 .f32) (W : FVec Ideal S128x128 .f32)
    (x : Vec Ideal S5000x128 .f32) (w : Vec Ideal S128x128 .f32) (r : Fin 100000) (p : Fin 5000) (q : Fin 128)
    (hx : ∀ k : Fin 128, x (ix2 p k) = X (ix2 r k)) (hw : ∀ k : Fin 128, w (ix2 k q) = W (ix2 k q)) :
    k0_pay1 (F := Ideal) x w (ix2 p q) = Cert.Gcn.dense X W (ix2 r q) := by
  rw [blockProduct_apply, Cert.Gcn.dense_apply]
  exact Finset.sum_congr rfl fun k _ => by rw [hx k, hw k]

/-! ## Which rows each point reads and writes -/

/-- The body's loads and its store start at row 0, column 0 of their blocks. -/
theorem zero_offsets : (![0, 0] : Fin 2 → Nat) = fun _ => 0 := funext fun a => by fin_cases a <;> rfl

/-- At point t the output block and the left operand's block are the t-th row-block (column-block 0), and the right
    operand's block is always the whole matrix: decided over the twenty points. -/
theorem block_indices : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point t writes back is the t-th row-block of the product of the two arrays as the region finds them: entry
    (p, q) of the block sits at row 5000·t + p of the output, the left block's row p is row 5000·t + p of the left
    array, and the right block is the right array. -/
theorem written_block_eq (c : Dev nD) (t : Fin cfg0.N) :
    (dat0 (F := Ideal) V c).flushed 2 t
      = ((cfg0.win 2).blk t).view.read (Elt Ideal) (Cert.Gcn.dense (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_indices t
  have ht : t.val < 20 := t.isLt
  refine funext fun (j : S5000x128.Idx) => ?_
  obtain ⟨p, q, rfl⟩ : ∃ (p : Fin 5000) (q : Fin 128), j = ix2 p q := ⟨j 0, j 1, eq_ix2 j⟩
  have hp : p.val < 5000 := p.isLt
  -- entry (p, q) of the output block is entry (5000·t + p, q) of the output array
  have hemb : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (F := Ideal) (iblk0 V c 0 t) (iblk0 V c 1 t) (ix2 p q)
      = Cert.Gcn.dense (V c main_arg0) (V c main_arg2) (((cfg0.win 2).blk t).view.emb (ix2 p q))
  rw [hemb]
  refine blockProduct_eq_dense (V c main_arg0) (V c main_arg2) (iblk0 V c 0 t) (iblk0 V c 1 t) _ p q
    (fun k => ?_) (fun k => ?_)
  · -- row p of the left block is row 5000·t + p of the left array
    show V c main_arg0 (((cfg0.win 0).blk t).view.emb (ix2 p k)) = _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · -- the right block is the right array
    show V c main_arg2 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-! ## The twenty row-blocks fill the output -/

/-- An entry of the output array lies in point t's block exactly when, on each axis, its coordinate is within the
    block's extent from the block's first coordinate. -/
theorem mem_rowBlock_iff (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- Every entry (r, j) of the output is written by some point: the point r / 5000, whose block is rows
    5000·(r / 5000) … 5000·(r / 5000) + 4999 and all 128 columns. -/
theorem rowBlocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, tv⟩ : ∃ t : Fin cfg0.N, t.val = (i 0).val / 5000 :=
    ⟨⟨(i 0).val / 5000, by show _ < 20; omega⟩, rfl⟩
  obtain ⟨e0, e1, -⟩ := block_indices t
  refine ⟨t, flush0_2 t, ?_⟩
  rw [mem_rowBlock_iff]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-! ## The output array after the twenty points -/

/-- After the last point the output array is the product of the left array by the right array. -/
theorem final0 (c : Dev nD) :
    (dat0 (F := Ideal) V c).arrAt 2 cfg0.N = Cert.Gcn.dense (V c main_arg0) (V c main_arg2) :=
  (dat0 V c).arrAt_eq_of_cover 2 (Cert.Gcn.dense (V c main_arg0) (V c main_arg2))
    (fun t _ => written_block_eq V c t) rowBlocks_cover

end Cert.Gcn.Region0

end
-- ==== Proof.Region1.lean ====
/-
  Region 1: the bias and the positive part, block by block.

  Each grid point takes one block of 5000 rows of a 100000 × 128 matrix a, adds the one-row matrix b to every row of the
  block, and keeps the positive part. The blocks tile the rows, so after the twenty points the output holds, at row r and
  column j, max(a(r, j) + b(0, j), 0).
-/
import proofs.«161686_j69956427317969_1_alg».proof.Proof.Gen.KernelIdeal.Frame
import proofs.«161686_j69956427317969_1_alg».proof.Proof.Spec
import Idealize.ShloMosaic.Lib.Pipeline.Value
import Idealize.ShloMosaic.Lib.ValueIdx

noncomputable section

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-- The one-row matrix laid along the 5000 rows of a block reads, at (p, q), the row's entry q. -/
theorem rowBroadcast_apply (x : FVec Ideal S1x128 .f32) (h : S1x128.Broadcasts S5000x128) (p : Fin 5000) (q : Fin 128) :
    broadcastTo S5000x128 x h (ix2 p q) = x (ix2 (0 : Fin 1) q) := by
  refine broadcastTo_apply x h (ix2 p q) (ix2 (0 : Fin 1) q) fun a => ?_
  match a with
  | ⟨0, _⟩ => rfl
  | ⟨1, _⟩ => rfl

/-- The body's payload at (p, q): the block's entry plus the row's entry q, or zero if that is negative. -/
theorem payload_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) 0 := by
  unfold k1_pay1
  rw [maximumf_apply, addf_apply, broadcast_apply, shapeCast_self, shapeCast_self, rowBroadcast_apply]
  exact congrArg (max _) Ideal.ofBits_zero_f32

/-- The index maps over the grid: the matrix's window and the output's window are at block row t, column block 0; the
    row's window stays at its one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the positive part of the matrix plus the row. -/
theorem flushed_eq (c : Dev nD) (t : Fin cfg1.N) :
    (dat1 (F := Ideal) V c).flushed 2 t
      = ((cfg1.win 2).blk t).view.read (Elt Ideal) (Cert.Gcn.relu (Cert.Gcn.addRow (V c main_v44) (V c main_v45))) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S1x128) zero_offsets]
  obtain ⟨e00, e01, e10, e11, e20, e21⟩ := index_facts t
  funext j
  obtain ⟨p, q, rfl⟩ : ∃ (p : Fin 5000) (q : Fin 128), j = ix2 p q := ⟨j 0, j 1, eq_ix2 j⟩
  refine (payload_apply _ _ p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  have key : ∀ (a : FVec Ideal S100000x128 .f32) (b : FVec Ideal S1x128 .f32),
      max (a (((cfg1.win 0).blk t).view.emb (ix2 p q)) + b (((cfg1.win 1).blk t).view.emb (ix2 (0 : Fin 1) q))) 0
        = max (a (((cfg1.win 2).blk t).view.emb (ix2 p q))
            + b (ix2 (0 : Fin 1) ((((cfg1.win 2).blk t).view.emb (ix2 p q)) 1))) 0 :=
    fun a b => congrArg₂ (fun u v => max (a u + b v) 0) h0 h1
  exact key (V c main_v44) (V c main_v45)

/-- An index of the output is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v46).slice (win1_2.rect t)).set ↔ _
  rw [View.set_slice_whole, Rect.mem_set_unit]
  exact Iff.rfl

/-- Row r lies in the block of point r / 5000: the twenty blocks of 5000 rows tile the 100000 rows. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨-, -, -, -, e20, e21⟩ := index_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the twenty points the output array is the positive part of the matrix plus the row. -/
theorem final1 (c : Dev nD) :
    (dat1 (F := Ideal) V c).arrAt 2 cfg1.N = Cert.Gcn.relu (Cert.Gcn.addRow (V c main_v44) (V c main_v45)) :=
  (dat1 (F := Ideal) V c).arrAt_eq_of_cover 2 _ (fun t _ => flushed_eq V c t) cover

end Cert.Gcn.Region1
end
-- ==== Proof.Region2.lean ====
/-
  Region 2: the product of a 100000 × 128 matrix by a 128 × 64 matrix, computed 5000 rows at a time.

  At grid point t (t = 0, …, 19) the body reads rows 5000·t … 5000·t + 4999 of the left matrix and the whole right
  matrix, recasts the left block to its own shape, multiplies them (both operands cut to the shorter float format, which over the extended reals
  changes nothing; the product is added into a matrix of zeros, which adds nothing), and writes the 5000 × 64 result over rows
  5000·t … 5000·t + 4999 of the output. The twenty row-blocks are disjoint and fill the 100000 rows, so after the last
  point the output holds, at row r and column j, the sum over k of x(r, k) · w(k, j).
-/
import proofs.«161686_j69956427317969_1_alg».proof.Proof.Gen.KernelIdeal.Frame
import proofs.«161686_j69956427317969_1_alg».proof.Proof.Spec
import Idealize.ShloMosaic.Lib.Pipeline.Value
import Idealize.ShloMosaic.Lib.KernelVsHost
import Idealize.ShloMosaic.Lib.StackMember

noncomputable section

namespace Cert.Gcn.Region2

open Cert.KernelIdeal Cert.KernelIdeal.Gen Idealize.ShloMosaic Idealize.ShloMosaic.TcCoe Idealize.SL.Sem
open Idealize.ShloMosaic.ValueIdx
open scoped BigOperators
open Idealize.ShloMosaic.Pipeline (Dat Cfg Window)

variable (V : (c : Dev nD) → (b : Ref sig .tc) → Buf (Elt Ideal) ((c : Thread nD τ).loc b))

/-! ## The body's result at an entry -/

/-- The body's result at row p, column q of the block: the sum over k of x(p, k) · w(k, q). Cutting to the shorter
    format is the identity on the extended reals (and so is recasting the left block to its own shape), a product accumulated into zeros is the plain product, and the
    printed contraction (left axis 1 against right axis 0) is the plain one. -/
theorem blockProduct_apply (x : Vec Ideal S5000x128 .f32) (w : Vec Ideal S128x64 .f32) (p : Fin 5000) (q : Fin 64) :
    k2_pay1 (F := Ideal) x w (ix2 p q) = ∑ k : Fin 128, x (ix2 p k) * w (ix2 k q) := by
  unfold k2_pay1
  show matmul dot_S5000x128_S128x64_S5000x64_1_0_0_1_n_n none
      (truncf .bf16 (shapeCast S5000x128 x shapeCasts_S5000x128_S5000x128) bitsLt_bf16_f32) (truncf .bf16 w bitsLt_bf16_f32)
      (constant (F := Ideal) S5000x64 .f32 0x00000000#32) (ix2 p q) = _
  rw [shapeCast_self, matmul_zero_eq_dotGeneral]
  rw [show (dot_S5000x128_S128x64_S5000x64_1_0_0_1_n_n : DotDims S5000x128 S128x64 S5000x64)
      = DotDims.plain 5000 128 64 from rfl]
  rw [StackMember.dotGeneral_plain_apply]
  rfl

/-- If row p of the block x is row r of the matrix X, and column q of w is column q of W, then the body's result at
    (p, q) is the product X · W at (r, q). -/
theorem blockProduct_eq_dense (X : FVec Ideal S100000x128 .f32) (W : FVec Ideal S128x64 .f32)
    (x : Vec Ideal S5000x128 .f32) (w : Vec Ideal S128x64 .f32) (r : Fin 100000) (p : Fin 5000) (q : Fin 64)
    (hx : ∀ k : Fin 128, x (ix2 p k) = X (ix2 r k)) (hw : ∀ k : Fin 128, w (ix2 k q) = W (ix2 k q)) :
    k2_pay1 (F := Ideal) x w (ix2 p q) = Cert.Gcn.dense X W (ix2 r q) := by
  rw [blockProduct_apply, Cert.Gcn.dense_apply]
  exact Finset.sum_congr rfl fun k _ => by rw [hx k, hw k]

/-! ## Which rows each point reads and writes -/

/-- The body's loads and its store start at row 0, column 0 of their blocks. -/
theorem zero_offsets : (![0, 0] : Fin 2 → Nat) = fun _ => 0 := funext fun a => by fin_cases a <;> rfl

/-- At point t the output block and the left operand's block are the t-th row-block (column-block 0), and the right
    operand's block is always the whole matrix: decided over the twenty points. -/
theorem block_indices : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- What point t writes back is the t-th row-block of the product of the two arrays as the region finds them: entry
    (p, q) of the block sits at row 5000·t + p of the output, the left block's row p is row 5000·t + p of the left
    array, and the right block is the right array. -/
theorem written_block_eq (c : Dev nD) (t : Fin cfg2.N) :
    (dat2 (F := Ideal) V c).flushed 2 t
      = ((cfg2.win 2).blk t).view.read (Elt Ideal) (Cert.Gcn.dense (V c main_v46) (V c main_arg4)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x64) zero_offsets]
  obtain ⟨e0, e1, e2, e3, e4, e5⟩ := block_indices t
  have ht : t.val < 20 := t.isLt
  refine funext fun (j : S5000x64.Idx) => ?_
  obtain ⟨p, q, rfl⟩ : ∃ (p : Fin 5000) (q : Fin 64), j = ix2 p q := ⟨j 0, j 1, eq_ix2 j⟩
  have hp : p.val < 5000 := p.isLt
  -- entry (p, q) of the output block is entry (5000·t + p, q) of the output array
  have hemb : ((cfg2.win 2).blk t).view.emb (ix2 p q) = ix2 (⟨t.val * 5000 + p.val, by omega⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  show k2_pay1 (F := Ideal) (iblk2 V c 0 t) (iblk2 V c 1 t) (ix2 p q)
      = Cert.Gcn.dense (V c main_v46) (V c main_arg4) (((cfg2.win 2).blk t).view.emb (ix2 p q))
  rw [hemb]
  refine blockProduct_eq_dense (V c main_v46) (V c main_arg4) (iblk2 V c 0 t) (iblk2 V c 1 t) _ p q
    (fun k => ?_) (fun k => ?_)
  · -- row p of the left block is row 5000·t + p of the left array
    show V c main_v46 (((cfg2.win 0).blk t).view.emb (ix2 p k)) = _
    refine congrArg _ ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · -- the right block is the right array
    show V c main_arg4 (((cfg2.win 1).blk t).view.emb (ix2 k q)) = _
    refine congrArg _ ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega

/-! ## The twenty row-blocks fill the output -/

/-- An entry of the output array lies in point t's block exactly when, on each axis, its coordinate is within the
    block's extent from the block's first coordinate. -/
theorem mem_rowBlock_iff (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v47).slice (win2_2.rect t)).set ↔ _
  rw [View.set_slice_whole, Rect.mem_set_unit]
  exact Iff.rfl

/-- Every entry (r, j) of the output is written by some point: the point r / 5000, whose block is rows
    5000·(r / 5000) … 5000·(r / 5000) + 4999 and all 64 columns. -/
theorem rowBlocks_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, tv⟩ : ∃ t : Fin cfg2.N, t.val = (i 0).val / 5000 :=
    ⟨⟨(i 0).val / 5000, by show _ < 20; omega⟩, rfl⟩
  obtain ⟨e0, e1, -⟩ := block_indices t
  refine ⟨t, flush2_2 t, ?_⟩
  rw [mem_rowBlock_iff]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-! ## The output array after the twenty points -/

/-- After the last point the output array is the product of the left array by the right array. -/
theorem final2 (c : Dev nD) :
    (dat2 (F := Ideal) V c).arrAt 2 cfg2.N = Cert.Gcn.dense (V c main_v46) (V c main_arg4) :=
  (dat2 V c).arrAt_eq_of_cover 2 (Cert.Gcn.dense (V c main_v46) (V c main_arg4))
    (fun t _ => written_block_eq V c t) rowBlocks_cover

end Cert.Gcn.Region2

end
-- ==== Proof.LibKeepdimsColumn.lean ====
/-
  Reading a row reduction kept as a column. A kernel that writes `sum(x, axis=-1, keepdims=True)` over an `[a, b]`
  block produces an `[a]` vector of lane sums, casts it to the column `[a, 1]`, works on the column, and
  broadcasts it back over the `b` lanes. Three index-level readings, at the extended reals, over generic extents:
  the cast to a column, the broadcast of a column over the lanes, and the lane sum itself as a `Fin b`-indexed sum.
-/
import Idealize.ShloMosaic.Lib.Pipeline.Value
import Idealize.ShloMosaic.Lib.ValueIdx
import Idealize.ShloMosaic.PureOps.Ideal.Laws

namespace Cert.KeepdimsColumn

open Idealize.ShloMosaic Idealize.ShloMosaic.ValueIdx

variable {α : Type}

/-- An `[a]` array cast to the column `[a, 1]` reads, at `(p, u)`, the operand at `p`: both sit at row-major
    position `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`, whatever the lane `c`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` vector, read at row `p` on the extended reals, is the sum over the `b` lanes of
    that row: the source index over `p` with lane `k` inserted is `(p, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun c => Fin.ext (by
    match c with
    | ⟨0, _⟩ => rfl
    | ⟨1, _⟩ => rfl))

end Cert.KeepdimsColumn
-- ==== Proof.LibLogSoftmaxForms.lean ====
/-
  The logarithm of a softmax along the rows of a matrix, in the two spellings a matrix unit and a host program give it,
  each read at one entry over the extended reals. Both are: the entry less its row's maximum, less the logarithm of the sum
  over the row of the exponentials of the entries so shifted.

  The matrix unit takes the row maximum as a lane reduction from -∞, keeps it as a column, broadcasts it over the lanes,
  subtracts, exponentiates, sums the lanes from zero, takes the logarithm of that column and subtracts its broadcast.
  The host reduces with a maximum body from -∞, takes the maximum with -∞ once more (which changes nothing), broadcasts
  through a column, and sums with an initial value of zero.
-/
import Idealize.ShloMosaic.PureOps.Ideal.Laws
import Idealize.ShloMosaic.Lib.ValueIdx
import Idealize.ShloMosaic.Lib.ValueLayout
import Idealize.ShloMosaic.Lib.Pipeline.Value
import Idealize.ShloMosaic.PureOps.Reduce
import proofs.«161686_j69956427317969_1_alg».proof.Proof.LibKeepdimsColumn
import proofs.«161686_j69956427317969_1_alg».proof.Proof.LibLogSoftmaxRow

noncomputable section

open Idealize.ShloMosaic Idealize.ShloMosaic.ValueIdx

namespace Cert.LibLogSoftmaxForms

open Cert.LibLogSoftmaxRow

/-- Over a matrix reduced along its lanes, the source index over row p with lane k put back is (p, k). -/
theorem lift_lane {M N : ℕ} (h : (⟨2, ![M, N]⟩ : Shape).Reduces [1] ⟨1, ![M]⟩) (p : Fin M) (k : Fin N) :
    h.lift (ix1 p) k = ix2 p k :=
  funext fun c => Fin.ext (by
    match c with
    | ⟨0, _⟩ => rfl
    | ⟨1, _⟩ => rfl)

/-- The lane maximum of a matrix, read at row p: the fold of max over that row from the accumulator's value. -/
theorem laneMax_apply {M N : ℕ} (src : FVec Ideal ⟨2, ![M, N]⟩ .f32) (acc : BitVec FTy.f32.bits)
    (h : (⟨2, ![M, N]⟩ : Shape).Reduces [1] ⟨1, ![M]⟩) (hφ : FKind.Formats .f32) (hacc : acc = FKind.maximumf.neutral .f32 hφ)
    (p : Fin M) :
    multiReduction .maximumf [1] ⟨1, ![M]⟩ src acc h hφ hacc (ix1 p)
      = (Finset.univ : Finset (Fin N)).fold max (Ideal.ofBits .f32 acc) (fun k => src (ix2 p k)) := by
  refine (Ideal.multiReduction_maximumf_single src acc h hφ hacc (ix1 p)).trans ?_
  exact congrArg (fun g => (Finset.univ : Finset (Fin N)).fold max (Ideal.ofBits .f32 acc) g)
    (funext fun k => congrArg src (lift_lane h p k))

/-- A vector laid out as a column and the column repeated over N lanes reads at (e, j) the vector at e. -/
theorem colsOfVec_apply {M N : ℕ} {α : Type} (v : (⟨1, ![M]⟩ : Shape).Idx → α)
    (h₁ : (⟨1, ![M]⟩ : Shape).BroadcastsInDim ⟨2, ![M, 1]⟩ ![0])
    (h₂ : (⟨2, ![M, 1]⟩ : Shape).BroadcastsInDim ⟨2, ![M, N]⟩ ![0, 1]) (e : Fin M) (j : Fin N) :
    broadcastInDim (⟨2, ![M, N]⟩ : Shape) ![0, 1] h₂ (broadcastInDim (⟨2, ![M, 1]⟩ : Shape) ![0] h₁ v) (ix2 e j) = v (ix1 e) := by
  have he := e.isLt
  have row : e.val = if M = 1 then 0 else e.val := by split_ifs <;> omega
  have inner : broadcastInDim (⟨2, ![M, 1]⟩ : Shape) ![0] h₁ v (ix2 e (0 : Fin 1)) = v (ix1 e) := by
    refine broadcastInDim_apply ![0] h₁ v _ (ix1 e) fun ax => ?_
    match ax with
    | ⟨0, _⟩ => exact row
  rw [← inner]
  refine broadcastInDim_apply ![0, 1] h₂ _ (ix2 e j) (ix2 e (0 : Fin 1)) fun ax => ?_
  match ax with
  | ⟨0, _⟩ => exact row
  | ⟨1, _⟩ => rfl

/-- The matrix unit's spelling, at row e and column j. -/
theorem unit_logSoftmax_apply {M N : ℕ} (z : FVec Ideal ⟨2, ![M, N]⟩ .f32)
    (hr : (⟨2, ![M, N]⟩ : Shape).Reduces [1] ⟨1, ![M]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩)
    (e : Fin M) (j : Fin N) :
    subf (subf z (broadcastTo (⟨2, ![M, N]⟩ : Shape)
        (shapeCast (⟨2, ![M, 1]⟩ : Shape) (multiReduction .maximumf [1] ⟨1, ![M]⟩ z 0xFF800000#32 hr hφ hmax) hc) hb))
      (broadcastTo (⟨2, ![M, N]⟩ : Shape) (log (shapeCast (⟨2, ![M, 1]⟩ : Shape)
        (multiReduction .add [1] ⟨1, ![M]⟩ (exp (subf z (broadcastTo (⟨2, ![M, N]⟩ : Shape)
          (shapeCast (⟨2, ![M, 1]⟩ : Shape) (multiReduction .maximumf [1] ⟨1, ![M]⟩ z 0xFF800000#32 hr hφ hmax) hc) hb)))
          0x00000000#32 hr hφ hadd) hc)) hb) (ix2 e j)
      = logSoftmaxRow (fun c => z (ix2 e c)) j := by
  -- the row maximum, kept as a column and broadcast, read at any lane of row e
  have mx : ∀ k : Fin N, broadcastTo (⟨2, ![M, N]⟩ : Shape)
      (shapeCast (⟨2, ![M, 1]⟩ : Shape) (multiReduction .maximumf [1] ⟨1, ![M]⟩ z 0xFF800000#32 hr hφ hmax) hc) hb (ix2 e k)
        = rowMax (fun c => z (ix2 e c)) := fun k => by
    rw [Cert.KeepdimsColumn.broadcastTo_a1_ab_apply, Cert.KeepdimsColumn.shapeCast_a_a1_apply, laneMax_apply]
    rfl
  unfold logSoftmaxRow
  rw [subf_apply, subf_apply, mx j, Cert.KeepdimsColumn.broadcastTo_a1_ab_apply]
  show _ - Ideal.log (shapeCast (⟨2, ![M, 1]⟩ : Shape) _ hc (ix2 e (0 : Fin 1))) = _
  rw [Cert.KeepdimsColumn.shapeCast_a_a1_apply, Cert.KeepdimsColumn.laneSum_apply]
  refine congrArg (fun s => _ - Ideal.log s) (Finset.sum_congr rfl fun k _ => ?_)
  show Ideal.exp (subf z _ (ix2 e k)) = _
  rw [subf_apply, mx k]

/-- The host's spelling, at row e and column j. -/
theorem host_logSoftmax_apply {M N : ℕ} (z : FVec Ideal ⟨2, ![M, N]⟩ .f32)
    (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (h₀ : (⟨0, ![]⟩ : Shape).BroadcastsInDim ⟨1, ![M]⟩ ![])
    (h₁ : (⟨1, ![M]⟩ : Shape).BroadcastsInDim ⟨2, ![M, 1]⟩ ![0])
    (h₂ : (⟨2, ![M, 1]⟩ : Shape).BroadcastsInDim ⟨2, ![M, N]⟩ ![0, 1]) (e : Fin M) (j : Fin N) :
    subf (subf z (broadcastInDim (⟨2, ![M, N]⟩ : Shape) ![0, 1] h₂ (broadcastInDim (⟨2, ![M, 1]⟩ : Shape) ![0] h₁
        (maximumf (broadcastInDim (⟨1, ![M]⟩ : Shape) ![] h₀ (constant (F := Ideal) (⟨0, ![]⟩ : Shape) .f32 0xFF800000#32))
          (Host.reduce FloatOps.maximumf z (constant (F := Ideal) (⟨0, ![]⟩ : Shape) .f32 0xFF800000#32) hr' hu)))))
      (broadcastInDim (⟨2, ![M, N]⟩ : Shape) ![0, 1] h₂ (Host.log (broadcastInDim (⟨2, ![M, 1]⟩ : Shape) ![0] h₁
        (Host.reduceAdd (Host.exp (subf z (broadcastInDim (⟨2, ![M, N]⟩ : Shape) ![0, 1] h₂ (broadcastInDim (⟨2, ![M, 1]⟩ : Shape) ![0] h₁
          (maximumf (broadcastInDim (⟨1, ![M]⟩ : Shape) ![] h₀ (constant (F := Ideal) (⟨0, ![]⟩ : Shape) .f32 0xFF800000#32))
            (Host.reduce FloatOps.maximumf z (constant (F := Ideal) (⟨0, ![]⟩ : Shape) .f32 0xFF800000#32) hr' hu))))))
          (constant (F := Ideal) (⟨0, ![]⟩ : Shape) .f32 0x00000000#32) hr' hu)))) (ix2 e j)
      = logSoftmaxRow (fun c => z (ix2 e c)) j := by
  -- the row maximum: the fold from -∞, then the maximum with -∞ once more, through a column, at any lane of row e
  have mx : ∀ k : Fin N, broadcastInDim (⟨2, ![M, N]⟩ : Shape) ![0, 1] h₂ (broadcastInDim (⟨2, ![M, 1]⟩ : Shape) ![0] h₁
        (maximumf (broadcastInDim (⟨1, ![M]⟩ : Shape) ![] h₀ (constant (F := Ideal) (⟨0, ![]⟩ : Shape) .f32 0xFF800000#32))
          (Host.reduce FloatOps.maximumf z (constant (F := Ideal) (⟨0, ![]⟩ : Shape) .f32 0xFF800000#32) hr' hu))) (ix2 e k)
        = rowMax (fun c => z (ix2 e c)) := fun k => by
    rw [colsOfVec_apply, maximumf_apply, broadcastInDim_apply ![] h₀ _ (ix1 e) ix0 (fun ax => ax.elim0), constant_apply,
      Host.reduce_eq_fold_single FloatOps.maximumf z _ hr' hr hu (ix1 e), constant_apply]
    have e1 : (z ∘ hr.lift (ix1 e)) = fun c : Fin N => z (ix2 e c) := funext fun c => congrArg z (lift_lane hr e c)
    rw [e1]
    exact max_neg_inf_rowMax _
  unfold logSoftmaxRow
  rw [subf_apply, subf_apply, mx j]
  -- the logarithm of the row's sum, through a column
  have hl : ∀ (v : FVec Ideal ⟨1, ![M]⟩ .f32),
      broadcastInDim (⟨2, ![M, N]⟩ : Shape) ![0, 1] h₂ (Host.log (broadcastInDim (⟨2, ![M, 1]⟩ : Shape) ![0] h₁ v)) (ix2 e j)
        = Ideal.log (v (ix1 e)) := fun v => by
    have he := e.isLt
    have row : e.val = if M = 1 then 0 else e.val := by split_ifs <;> omega
    have outer : broadcastInDim (⟨2, ![M, N]⟩ : Shape) ![0, 1] h₂ (Host.log (broadcastInDim (⟨2, ![M, 1]⟩ : Shape) ![0] h₁ v)) (ix2 e j)
        = Host.log (broadcastInDim (⟨2, ![M, 1]⟩ : Shape) ![0] h₁ v) (ix2 e (0 : Fin 1)) := by
      refine broadcastInDim_apply ![0, 1] h₂ _ (ix2 e j) (ix2 e (0 : Fin 1)) fun ax => ?_
      match ax with
      | ⟨0, _⟩ => exact row
      | ⟨1, _⟩ => rfl
    rw [outer]
    show Ideal.log (broadcastInDim (⟨2, ![M, 1]⟩ : Shape) ![0] h₁ v (ix2 e (0 : Fin 1))) = _
    refine congrArg Ideal.log (broadcastInDim_apply ![0] h₁ v _ (ix1 e) fun ax => ?_)
    match ax with
    | ⟨0, _⟩ => exact row
  rw [hl]
  simp only [Host.reduceAdd, Ideal.hostReduceAdd_def]
  rw [Ideal.hostReduceAdd_single hr' hr, constant_apply, Ideal.ofBits_zero_f32, zero_add]
  refine congrArg (fun s => _ - Ideal.log s) (Finset.sum_congr rfl fun k _ => ?_)
  rw [lift_lane hr e k]
  show Ideal.exp (subf z _ (ix2 e k)) = _
  rw [subf_apply, mx k]

end Cert.LibLogSoftmaxForms

end
-- ==== Proof.Region3.lean ====
/-
  Region 3: the bias and the logarithm of the softmax of every row, block by block.

  Each grid point takes one block of 5000 rows of a 100000 × 64 matrix a, adds the one-row matrix b to every row of the
  block, and replaces every row by the logarithm of its softmax: each entry less the row's maximum, less the logarithm of
  the sum over the row of the exponentials of the entries so shifted. A row of a block is a row of the matrix, and the
  blocks tile the rows, so after the twenty points the output is the logarithm of the softmax of every row of a plus b.
-/
import proofs.«161686_j69956427317969_1_alg».proof.Proof.Gen.KernelIdeal.Frame
import proofs.«161686_j69956427317969_1_alg».proof.Proof.Spec
import proofs.«161686_j69956427317969_1_alg».proof.Proof.LibLogSoftmaxForms
import Idealize.ShloMosaic.Lib.Pipeline.Value
import Idealize.ShloMosaic.Lib.ValueIdx

noncomputable section

namespace Cert.Gcn.Region3

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.LibLogSoftmaxRow (logSoftmaxRow)

variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-- The one-row matrix laid along the 5000 rows of a block reads, at (p, q), the row's entry q. -/
theorem rowBroadcast_apply (x : FVec Ideal S1x64 .f32) (h : S1x64.Broadcasts S5000x64) (p : Fin 5000) (q : Fin 64) :
    broadcastTo S5000x64 x h (ix2 p q) = x (ix2 (0 : Fin 1) q) := by
  refine broadcastTo_apply x h (ix2 p q) (ix2 (0 : Fin 1) q) fun a => ?_
  match a with
  | ⟨0, _⟩ => rfl
  | ⟨1, _⟩ => rfl

/-- The body's payload at (p, q): entry q of the logarithm of the softmax of row p of the block plus the row. -/
theorem payload_apply (x0 : Vec Ideal S5000x64 .f32) (x1 : Vec Ideal S1x64 .f32) (p : Fin 5000) (q : Fin 64) :
    k3_pay1 (F := Ideal) x0 x1 (ix2 p q)
      = logSoftmaxRow (fun k : Fin 64 => x0 (ix2 p k) + x1 (ix2 (0 : Fin 1) k)) q := by
  have hz : ∀ k : Fin 64, addf (F := Ideal) x0 (broadcastTo S5000x64 x1 broadcasts_S1x64_S5000x64) (ix2 p k)
      = x0 (ix2 p k) + x1 (ix2 (0 : Fin 1) k) := fun k => by
    rw [addf_apply, rowBroadcast_apply]
  unfold k3_pay1
  rw [shapeCast_self, shapeCast_self]
  refine (Cert.LibLogSoftmaxForms.unit_logSoftmax_apply
    (addf (F := Ideal) x0 (broadcastTo S5000x64 x1 broadcasts_S1x64_S5000x64))
    reduces_S5000x64_S5000 (.inl rfl) rfl rfl shapeCasts_S5000_S5000x1 broadcasts_S5000x1_S5000x64 p q).trans ?_
  exact congrArg (fun f => logSoftmaxRow f q) (funext hz)

/-- The index maps over the grid: the matrix's window and the output's window are at block row t, column block 0; the
    row's window stays at its one block. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the logarithm of the softmax of every row of the matrix plus the row. -/
theorem flushed_eq (c : Dev nD) (t : Fin cfg3.N) :
    (dat3 (F := Ideal) V c).flushed 2 t
      = ((cfg3.win 2).blk t).view.read (Elt Ideal)
          (Cert.Gcn.logSoftmaxRows (Cert.Gcn.addRow (V c main_v60) (V c main_v61))) := by
  show (cfg3.win 2).cut (grid3.coords t) ((dat3 (F := Ideal) V c).after 2 t) = _
  rw [after3_2]
  unfold out3_2
  rw [View.canon_unit_zero zero_offsets]
  simp only [View.ld_unit_zero (S := S5000x64) zero_offsets, View.ld_unit_zero (S := S1x64) zero_offsets]
  obtain ⟨e00, e01, e10, e11, e20, e21⟩ := index_facts t
  funext j
  obtain ⟨p, q, rfl⟩ : ∃ (p : Fin 5000) (q : Fin 64), j = ix2 p q := ⟨j 0, j 1, eq_ix2 j⟩
  refine (payload_apply _ _ p q).trans ?_
  have ht : t.val < 20 := t.isLt
  -- row p of block t is row 5000 t + p of the matrix
  have hr : t.val * 5000 + p.val < 100000 := by have := p.isLt; omega
  -- where the output's block puts its entry (p, q)
  have h2 : ((cfg3.win 2).blk t).view.emb (ix2 p q) = ix2 (⟨t.val * 5000 + p.val, hr⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  -- where the matrix's block takes its entry (p, k) from
  have h0 : ∀ k : Fin 64, ((cfg3.win 0).blk t).view.emb (ix2 p k) = ix2 (⟨t.val * 5000 + p.val, hr⟩ : Fin 100000) k := fun k => by
    funext a; apply Fin.ext
    match a with
    | ⟨0, _⟩ => show win3_0.index t (0 : Fin 2) * 5000 + 1 * p.val = t.val * 5000 + p.val; omega
    | ⟨1, _⟩ => show win3_0.index t (1 : Fin 2) * 64 + 1 * k.val = k.val; omega
  -- the row's block is the row
  have h1 : ∀ k : Fin 64, ((cfg3.win 1).blk t).view.emb (ix2 (0 : Fin 1) k) = ix2 (0 : Fin 1) k := fun k => by
    funext a; apply Fin.ext
    match a with
    | ⟨0, _⟩ => show win3_1.index t (0 : Fin 2) * 1 + 1 * 0 = 0; omega
    | ⟨1, _⟩ => show win3_1.index t (1 : Fin 2) * 64 + 1 * k.val = k.val; omega
  have key : ∀ (a : FVec Ideal S100000x64 .f32) (b : FVec Ideal S1x64 .f32),
      logSoftmaxRow (fun k : Fin 64 => a (((cfg3.win 0).blk t).view.emb (ix2 p k))
          + b (((cfg3.win 1).blk t).view.emb (ix2 (0 : Fin 1) k))) q
        = Cert.Gcn.logSoftmaxRows (Cert.Gcn.addRow a b) (((cfg3.win 2).blk t).view.emb (ix2 p q)) := fun a b => by
    rw [h2]
    refine Eq.trans ?_ (Cert.Gcn.logSoftmaxRows_apply (Cert.Gcn.addRow a b) (⟨t.val * 5000 + p.val, hr⟩ : Fin 100000) q).symm
    refine congrArg (fun f => logSoftmaxRow f q) (funext fun k => ?_)
    show a (((cfg3.win 0).blk t).view.emb (ix2 p k)) + b (((cfg3.win 1).blk t).view.emb (ix2 (0 : Fin 1) k)) = _
    rw [h0 k, h1 k, Cert.Gcn.addRow_apply]
  exact key (V c main_v60) (V c main_v61)

/-- An index of the output is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v62).slice (win3_2.rect t)).set ↔ _
  rw [View.set_slice_whole, Rect.mem_set_unit]
  exact Iff.rfl

/-- Row r lies in the block of point r / 5000: the twenty blocks of 5000 rows tile the 100000 rows. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 5000, by show (i 0).val / 5000 < 20; omega⟩
  obtain ⟨-, -, -, -, e20, e21⟩ := index_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the twenty points the output array is the logarithm of the softmax of every row of the matrix plus the row. -/
theorem final3 (c : Dev nD) :
    (dat3 (F := Ideal) V c).arrAt 2 cfg3.N
      = Cert.Gcn.logSoftmaxRows (Cert.Gcn.addRow (V c main_v60) (V c main_v61)) :=
  (dat3 (F := Ideal) V c).arrAt_eq_of_cover 2 _ (fun t _ => flushed_eq V c t) cover

end Cert.Gcn.Region3
end
-- ==== Proof.RefSpec.lean ====
/-
  The reference's result as one function of its six arguments, in its own operations: two graph-convolution layers
  (product with the weights, the sparse stage, the bias added to every row), the positive part between them, and the
  logarithm of the softmax of every row at the end.
-/
import proofs.«161686_j69956427317969_1_alg».proof.Proof.Glue

noncomputable section

namespace Cert.Gcn.RefSpec

open Cert.ReferenceIdeal Cert.ReferenceIdeal.Facts₀ Cert.ReferenceIdeal.Facts Idealize.ShloMosaic Cert.Gcn.Glue

variable {F : FTy → Type} [FloatOps F]

/-- A vector of 128 entries laid along each of the 100000 rows. -/
def rows128 (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- A vector of 64 entries laid along each of the 100000 rows. -/
def rows64 (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- The positive part of a 100000 × 128 matrix. -/
def pos128 (z : (⟨S100000x128, .f32⟩ : BufTy).Contents (Elt F)) : (⟨S100000x128, .f32⟩ : BufTy).Contents (Elt F) :=
  maximumf z (broadcastInDim S100000x128 ![] bcast_S_S100000x128 (constant S_ .f32 0x00000000#32))

/-- The logarithm of the softmax of every row of a 100000 × 64 matrix, the host's spelling. -/
def lsm64 (z : (⟨S100000x64, .f32⟩ : BufTy).Contents (Elt F)) : (⟨S100000x64, .f32⟩ : BufTy).Contents (Elt F) :=
  subf (subf z (broadcastInDim S100000x64 ![0, 1] bcast_S100000x1_S100000x64_0_1 (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x64_S100000_d1 h_S_)))))
    (broadcastInDim S100000x64 ![0, 1] bcast_S100000x1_S100000x64_0_1 (Host.log (broadcastInDim S100000x1 ![0] bcast_S100000_S100000x1_0
      (Host.reduceAdd (Host.exp (subf z (broadcastInDim S100000x64 ![0, 1] bcast_S100000x1_S100000x64_0_1 (broadcastInDim S100000x1 ![0] bcast_S100000_S100000x1_0
          (maximumf (broadcastInDim S100000 ![] bcast_S_S100000 (constant S_ .f32 0xFF800000#32))
            (Host.reduce FloatOps.maximumf z (constant S_ .f32 0xFF800000#32) reducesTo_S100000x64_S100000_d1 h_S_))))))
        (constant S_ .f32 0x00000000#32) reducesTo_S100000x64_S100000_d1 h_S_))))

/-- The hidden layer: the first convolution and the positive part. -/
def hidden (x : (⟨S100000x128, .f32⟩ : BufTy).Contents (Elt F)) (e : (⟨S2x640000, .i32⟩ : BufTy).Contents (Elt F))
    (w1 : (⟨S128x128, .f32⟩ : BufTy).Contents (Elt F)) (b1 : (⟨S128, .f32⟩ : BufTy).Contents (Elt F)) :
    (⟨S100000x128, .f32⟩ : BufTy).Contents (Elt F) :=
  pos128 (addf (spread128 (srcIdx e) (dstIdx e) (norm (srcIdx e) (dstIdx e))
    (Host.dotGeneral dot_S100000x128_S128x128_S100000x128_1_0_0_1_n_n none x w1)) (rows128 b1))

/-- The reference's result. -/
def out (x : (⟨S100000x128, .f32⟩ : BufTy).Contents (Elt F)) (e : (⟨S2x640000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S100000x64, .f32⟩ : BufTy).Contents (Elt F) :=
  lsm64 (addf (spread64 (srcIdx e) (dstIdx e) (norm (srcIdx e) (dstIdx e))
    (Host.dotGeneral dot_S100000x128_S128x64_S100000x64_1_0_0_1_n_n none (hidden x e w1 b1) w2)) (rows64 b2))

end Cert.Gcn.RefSpec

end
-- ==== Proof.Bridge.lean ====
/-
  The reference's dense stages, in the host's spelling, are the four functions of Spec, entry by entry over the extended
  reals: the host's matrix product is the sum of products; a bias laid along the rows by two broadcasts and added, then
  the maximum with a splat zero, is the positive part of the matrix with the one-row bias added to every row; the host's
  logarithm of a softmax is the row formula. With the sparse stage shared, the reference's result is the kernel's.
-/
import proofs.«161686_j69956427317969_1_alg».proof.Proof.RefSpec
import proofs.«161686_j69956427317969_1_alg».proof.Proof.Spec
import proofs.«161686_j69956427317969_1_alg».proof.Proof.LibLogSoftmaxForms
import Idealize.ShloMosaic.Lib.StackMember
import Idealize.ShloMosaic.Lib.Pipeline.Value
import Idealize.ShloMosaic.Lib.ValueIdx

noncomputable section

namespace Cert.Gcn.Bridge

open Cert.ReferenceIdeal Cert.ReferenceIdeal.Facts₀ Cert.ReferenceIdeal.Facts
open Idealize.ShloMosaic Idealize.ShloMosaic.ValueIdx Cert.Gcn.Glue Cert.Gcn.RefSpec

/-- The first product, read at every entry. -/
theorem dot128_eq (x : FVec Ideal ⟨2, ![100000, 128]⟩ .f32) (w : FVec Ideal ⟨2, ![128, 128]⟩ .f32) :
    Host.dotGeneral dot_S100000x128_S128x128_S100000x128_1_0_0_1_n_n none x w = Cert.Gcn.dense x w := by
  funext i
  obtain ⟨r, j, rfl⟩ : ∃ (r : Fin 100000) (j : Fin 128), i = ix2 r j := ⟨i 0, i 1, eq_ix2 i⟩
  rw [Cert.Gcn.dense_apply]
  exact StackMember.dotGeneral_plain_apply (m := 100000) (n := 128) (k := 128) none x w r j

/-- The second product, read at every entry. -/
theorem dot64_eq (x : FVec Ideal ⟨2, ![100000, 128]⟩ .f32) (w : FVec Ideal ⟨2, ![128, 64]⟩ .f32) :
    Host.dotGeneral dot_S100000x128_S128x64_S100000x64_1_0_0_1_n_n none x w = Cert.Gcn.dense x w := by
  funext i
  obtain ⟨r, j, rfl⟩ : ∃ (r : Fin 100000) (j : Fin 64), i = ix2 r j := ⟨i 0, i 1, eq_ix2 i⟩
  rw [Cert.Gcn.dense_apply]
  exact StackMember.dotGeneral_plain_apply (m := 100000) (n := 64) (k := 128) none x w r j

/-- A vector of D entries laid along N rows by the host's two broadcasts, added to a matrix: the vector as one row added
    to every row. -/
theorem addRows_eq {N D : ℕ} (a : FVec Ideal ⟨2, ![N, D]⟩ .f32) (b : FVec Ideal ⟨1, ![D]⟩ .f32)
    (h₁ : (⟨1, ![D]⟩ : Shape).BroadcastsInDim ⟨2, ![1, D]⟩ ![1])
    (h₂ : (⟨2, ![1, D]⟩ : Shape).BroadcastsInDim ⟨2, ![N, D]⟩ ![0, 1])
    (hc : (⟨1, ![D]⟩ : Shape).ShapeCasts ⟨2, ![1, D]⟩) :
    addf a (broadcastInDim (⟨2, ![N, D]⟩ : Shape) ![0, 1] h₂ (broadcastInDim (⟨2, ![1, D]⟩ : Shape) ![1] h₁ b))
      = Cert.Gcn.addRow a (shapeCast (⟨2, ![1, D]⟩ : Shape) b hc) := by
  funext i
  obtain ⟨r, j, rfl⟩ : ∃ (r : Fin N) (j : Fin D), i = ix2 r j := ⟨i 0, i 1, eq_ix2 i⟩
  rw [Cert.Gcn.addRow_apply, addf_apply]
  have hj := j.isLt
  have col : j.val = if D = 1 then 0 else j.val := by split_ifs <;> omega
  have e1 : broadcastInDim (⟨2, ![N, D]⟩ : Shape) ![0, 1] h₂ (broadcastInDim (⟨2, ![1, D]⟩ : Shape) ![1] h₁ b) (ix2 r j)
      = broadcastInDim (⟨2, ![1, D]⟩ : Shape) ![1] h₁ b (ix2 (0 : Fin 1) j) := by
    refine broadcastInDim_apply ![0, 1] h₂ _ (ix2 r j) (ix2 (0 : Fin 1) j) fun ax => ?_
    match ax with
    | ⟨0, _⟩ => rfl
    | ⟨1, _⟩ => exact col
  have e2 : broadcastInDim (⟨2, ![1, D]⟩ : Shape) ![1] h₁ b (ix2 (0 : Fin 1) j) = b (ix1 j) := by
    refine broadcastInDim_apply ![1] h₁ b _ (ix1 j) fun ax => ?_
    match ax with
    | ⟨0, _⟩ => exact col
  have e3 : shapeCast (⟨2, ![1, D]⟩ : Shape) b hc (ix2 (0 : Fin 1) j) = b (ix1 j) :=
    shapeCast_apply b hc _ _ (by
      rw [Shape.rowMajor_val_one, Shape.rowMajor_val_two]
      show j.val = 0 * D + j.val
      omega)
  rw [e1, e2, e3]

/-- The maximum with a splat zero is the positive part. -/
theorem pos128_eq (z : FVec Ideal ⟨2, ![100000, 128]⟩ .f32) : pos128 (F := Ideal) z = Cert.Gcn.relu z := by
  funext i
  unfold pos128
  rw [maximumf_apply, Cert.Gcn.relu_apply, broadcastInDim_apply ![] bcast_S_S100000x128 _ i ix0 (fun ax => ax.elim0),
    constant_apply, Ideal.ofBits_zero_f32]

/-- The host's logarithm of a softmax is the row formula. -/
theorem lsm64_eq (z : FVec Ideal ⟨2, ![100000, 64]⟩ .f32) : lsm64 (F := Ideal) z = Cert.Gcn.logSoftmaxRows z := by
  funext i
  obtain ⟨r, j, rfl⟩ : ∃ (r : Fin 100000) (j : Fin 64), i = ix2 r j := ⟨i 0, i 1, eq_ix2 i⟩
  rw [Cert.Gcn.logSoftmaxRows_apply]
  unfold lsm64
  exact Cert.LibLogSoftmaxForms.host_logSoftmax_apply (M := 100000) (N := 64) z reducesTo_S100000x64_S100000_d1 (by decide) h_S_
    bcast_S_S100000 bcast_S100000_S100000x1_0 bcast_S100000x1_S100000x64_0_1 r j

/-- The kernel program's result as a function of the six arguments: the dense stages of Spec around the shared sparse
    stage, each bias as a one-row matrix. -/
def kernelOut (hc1 : (⟨1, ![128]⟩ : Shape).ShapeCasts ⟨2, ![1, 128]⟩) (hc2 : (⟨1, ![64]⟩ : Shape).ShapeCasts ⟨2, ![1, 64]⟩)
    (x : FVec Ideal ⟨2, ![100000, 128]⟩ .f32) (e : (⟨S2x640000, .i32⟩ : BufTy).Contents (Elt Ideal))
    (w1 : FVec Ideal ⟨2, ![128, 128]⟩ .f32) (b1 : FVec Ideal ⟨1, ![128]⟩ .f32)
    (w2 : FVec Ideal ⟨2, ![128, 64]⟩ .f32) (b2 : FVec Ideal ⟨1, ![64]⟩ .f32) : FVec Ideal ⟨2, ![100000, 64]⟩ .f32 :=
  Cert.Gcn.logSoftmaxRows (Cert.Gcn.addRow
    (spread64 (srcIdx e) (dstIdx e) (norm (srcIdx e) (dstIdx e))
      (Cert.Gcn.dense (Cert.Gcn.relu (Cert.Gcn.addRow
        (spread128 (srcIdx e) (dstIdx e) (norm (srcIdx e) (dstIdx e)) (Cert.Gcn.dense x w1))
        (shapeCast (⟨2, ![1, 128]⟩ : Shape) b1 hc1))) w2))
    (shapeCast (⟨2, ![1, 64]⟩ : Shape) b2 hc2))

/-- The reference's result is the kernel's. -/
theorem out_eq (hc1 : (⟨1, ![128]⟩ : Shape).ShapeCasts ⟨2, ![1, 128]⟩) (hc2 : (⟨1, ![64]⟩ : Shape).ShapeCasts ⟨2, ![1, 64]⟩)
    (x : FVec Ideal ⟨2, ![100000, 128]⟩ .f32) (e : (⟨S2x640000, .i32⟩ : BufTy).Contents (Elt Ideal))
    (w1 : FVec Ideal ⟨2, ![128, 128]⟩ .f32) (b1 : FVec Ideal ⟨1, ![128]⟩ .f32)
    (w2 : FVec Ideal ⟨2, ![128, 64]⟩ .f32) (b2 : FVec Ideal ⟨1, ![64]⟩ .f32) :
    RefSpec.out (F := Ideal) x e w1 b1 w2 b2 = kernelOut hc1 hc2 x e w1 b1 w2 b2 := by
  unfold RefSpec.out RefSpec.hidden kernelOut rows128 rows64
  rw [lsm64_eq, addRows_eq _ b2 bcast_S64_S1x64_1 bcast_S1x64_S100000x64_0_1 hc2, dot64_eq, pos128_eq,
    addRows_eq _ b1 bcast_S128_S1x128_1 bcast_S1x128_S100000x128_0_1 hc1, dot128_eq]

end Cert.Gcn.Bridge

end
-- ==== Proof.KernelValue.lean ====
/-
  The kernel program's result buffer at the end of its run, as a function of the six arguments: the boundaries' contents
  composed from the first region to the last, each region's output array by its dense stage and each host stretch by the
  shared sparse stage.
-/
import proofs.«161686_j69956427317969_1_alg».proof.Proof.KernelChain
import proofs.«161686_j69956427317969_1_alg».proof.Proof.Region0
import proofs.«161686_j69956427317969_1_alg».proof.Proof.Region1
import proofs.«161686_j69956427317969_1_alg».proof.Proof.Region2
import proofs.«161686_j69956427317969_1_alg».proof.Proof.Region3
import proofs.«161686_j69956427317969_1_alg».proof.Proof.Bridge

set_option quotPrecheck false
set_option maxRecDepth 16384

noncomputable section

namespace Cert.Gcn.KernelValue

open Cert.KernelIdeal Cert.KernelIdeal.Gen
open Idealize.ShloMosaic Idealize.ShloMosaic.TcCoe Idealize.SL.Sem Idealize.ShloMosaic.StableHlo
open Cert.Gcn.KernelChain

variable (m : (ℓ : Loc nD τ sig) → Buf (Elt Ideal) ℓ) (ρ : Dev nD → PrngReg) (c : Dev nD)

local notation "feat" => m ((c : Thread nD τ).loc main_arg0)
local notation "edges" => m ((c : Thread nD τ).loc main_arg1)
local notation "wt1" => m ((c : Thread nD τ).loc main_arg2)
local notation "bs1" => m ((c : Thread nD τ).loc main_arg3)
local notation "wt2" => m ((c : Thread nD τ).loc main_arg4)
local notation "bs2" => m ((c : Thread nD τ).loc main_arg5)
local notation "srcs" => Cert.Gcn.Glue.srcIdx edges
local notation "dsts" => Cert.Gcn.Glue.dstIdx edges
local notation "nrm" => Cert.Gcn.Glue.norm (Cert.Gcn.Glue.srcIdx edges) (Cert.Gcn.Glue.dstIdx edges)

/-- After region 0: the first product. -/
theorem prod1_W4 : W4 m ρ c (Proc.devRef .tc main_v31) = Cert.Gcn.dense feat wt1 := by
  refine (W4_arr m ρ c 2).trans ?_
  rw [Cert.Gcn.Region0.final0]
  exact congrArg₂ Cert.Gcn.dense (arg0_W3 m ρ c) (arg2_W3 m ρ c)

/-- When region 1 is entered: the first product spread over the edges. -/
theorem spread1_W5 : W5 m ρ c (Proc.devRef .tc main_v44) = Cert.Gcn.Glue.spread128 srcs dsts nrm (Cert.Gcn.dense feat wt1) := by
  refine (spread_hostOps1 (W4 m ρ c)).trans ?_
  rw [src_W4, dst_W4, norm_W4, prod1_W4]

/-- When region 1 is entered: the first bias as one row. -/
theorem bias1_W5 : W5 m ρ c (Proc.devRef .tc main_v45)
    = shapeCast S1x128 bs1 Cert.KernelIdeal.Facts₀.shapeCasts_S128_S1x128 := by
  refine (bias_hostOps1 (W4 m ρ c)).trans ?_
  rw [arg3_W4]

/-- After region 1: the hidden layer. -/
theorem hidden_W6 : W6 m ρ c (Proc.devRef .tc main_v46)
    = Cert.Gcn.relu (Cert.Gcn.addRow (Cert.Gcn.Glue.spread128 srcs dsts nrm (Cert.Gcn.dense feat wt1))
        (shapeCast S1x128 bs1 Cert.KernelIdeal.Facts₀.shapeCasts_S128_S1x128)) := by
  refine (W6_arr m ρ c 2).trans ?_
  rw [Cert.Gcn.Region1.final1]
  exact congrArg₂ (fun a b => Cert.Gcn.relu (Cert.Gcn.addRow a b)) (spread1_W5 m ρ c) (bias1_W5 m ρ c)

/-- After region 2: the second product. -/
theorem prod2_W7 : W7 m ρ c (Proc.devRef .tc main_v47)
    = Cert.Gcn.dense (Cert.Gcn.relu (Cert.Gcn.addRow (Cert.Gcn.Glue.spread128 srcs dsts nrm (Cert.Gcn.dense feat wt1))
        (shapeCast S1x128 bs1 Cert.KernelIdeal.Facts₀.shapeCasts_S128_S1x128))) wt2 := by
  refine (W7_arr m ρ c 2).trans ?_
  rw [Cert.Gcn.Region2.final2]
  exact congrArg₂ Cert.Gcn.dense (hidden_W6 m ρ c) (arg4_W6 m ρ c)

/-- When region 3 is entered: the second product spread over the edges. -/
theorem spread2_W8 : W8 m ρ c (Proc.devRef .tc main_v60)
    = Cert.Gcn.Glue.spread64 srcs dsts nrm (Cert.Gcn.dense (Cert.Gcn.relu (Cert.Gcn.addRow
        (Cert.Gcn.Glue.spread128 srcs dsts nrm (Cert.Gcn.dense feat wt1))
        (shapeCast S1x128 bs1 Cert.KernelIdeal.Facts₀.shapeCasts_S128_S1x128))) wt2) := by
  refine (spread_hostOps3 (W7 m ρ c)).trans ?_
  rw [src_W7, dst_W7, norm_W7, prod2_W7]

/-- When region 3 is entered: the second bias as one row. -/
theorem bias2_W8 : W8 m ρ c (Proc.devRef .tc main_v61)
    = shapeCast S1x64 bs2 Cert.KernelIdeal.Facts₀.shapeCasts_S64_S1x64 := by
  refine (bias_hostOps3 (W7 m ρ c)).trans ?_
  rw [arg5_W7]

/-- At the end of the run: the result. -/
theorem out_W9 : W9 m ρ c (Proc.devRef .tc main_v62)
    = Cert.Gcn.Bridge.kernelOut Cert.KernelIdeal.Facts₀.shapeCasts_S128_S1x128 Cert.KernelIdeal.Facts₀.shapeCasts_S64_S1x64
        feat edges wt1 bs1 wt2 bs2 := by
  refine (W9_arr m ρ c 2).trans ?_
  rw [Cert.Gcn.Region3.final3]
  unfold Cert.Gcn.Bridge.kernelOut
  exact congrArg₂ (fun a b => Cert.Gcn.logSoftmaxRows (Cert.Gcn.addRow a b)) (spread2_W8 m ρ c) (bias2_W8 m ρ c)

end Cert.Gcn.KernelValue

end
-- ==== Proof.RefValue.lean ====
/-
  The reference program's result as the function `RefSpec.out` of its six arguments.

  The program is a straight line of 136 operations. It is cut into nine stretches: the product with the first weights;
  the edge lists with self-loops, the degrees and the normalisation of every edge; the sparse stage; the bias and the
  positive part; then the same four for the second layer (the bias without a positive part); and the logarithm of the
  softmax of every row. Each stretch's result is read as a function of the contents the stretch starts from, whatever
  they are, and the stretches are chained: what a stretch reads is what the stretches before it left. No operation
  writes an argument, so an argument is read everywhere as it was launched.
-/
import proofs.«161686_j69956427317969_1_alg».proof.Proof.RefRun
import proofs.«161686_j69956427317969_1_alg».proof.Proof.RefSpec
import Idealize.ShloMosaic.Lib.Pipeline.Frame

noncomputable section

namespace Cert.Gcn.RefValue

open Cert.ReferenceIdeal Cert.ReferenceIdeal.Gen Idealize.ShloMosaic Idealize.ShloMosaic.TcCoe Idealize.SL.Sem Idealize.ShloMosaic.StableHlo
open Cert.ReferenceIdeal.RefRun Cert.Gcn.Glue Cert.Gcn.RefSpec

variable {F : FTy → Type} [FloatOps F]

/-- The first product with the weights: the first operation. -/
abbrev firstProduct : List (HloOp τ sig (Elt F)) := (ops (F := F)).take 1
/-- The edge lists with self-loops, the degrees and the normalisation, first layer: the next 39 operations. -/
abbrev firstEdges : List (HloOp τ sig (Elt F)) := ((ops (F := F)).drop 1).take 39
/-- The sparse stage of the first layer: the next 16. -/
abbrev firstSpread : List (HloOp τ sig (Elt F)) := ((ops (F := F)).drop 40).take 16
/-- The first bias and the positive part: the next 6. -/
abbrev firstBias : List (HloOp τ sig (Elt F)) := ((ops (F := F)).drop 56).take 6
/-- The second product with the weights: one operation. -/
abbrev secondProduct : List (HloOp τ sig (Elt F)) := ((ops (F := F)).drop 62).take 1
/-- The edge quantities computed again for the second layer: 39 operations. -/
abbrev secondEdges : List (HloOp τ sig (Elt F)) := ((ops (F := F)).drop 63).take 39
/-- The sparse stage of the second layer: 16 operations. -/
abbrev secondSpread : List (HloOp τ sig (Elt F)) := ((ops (F := F)).drop 102).take 16
/-- The second bias: 3 operations. -/
abbrev secondBias : List (HloOp τ sig (Elt F)) := ((ops (F := F)).drop 118).take 3
/-- The logarithm of the softmax of every row: the last 15 operations. -/
abbrev rowLogSoftmax : List (HloOp τ sig (Elt F)) := (ops (F := F)).drop 121

/-- The whole line is its nine stretches in a row. -/
theorem ops_split : ops (F := F) = firstProduct ++ (firstEdges ++ (firstSpread ++ (firstBias ++ (secondProduct ++
    (secondEdges ++ (secondSpread ++ (secondBias ++ rowLogSoftmax))))))) := rfl

/-- Lays a stretch out as the list of its operations. -/
local macro "lay_out" : tactic =>
  `(tactic| simp only [firstProduct, firstEdges, firstSpread, firstBias, secondProduct, secondEdges, secondSpread, secondBias,
      rowLogSoftmax, ops, List.drop_succ_cons, List.drop_zero, List.take_succ_cons, List.take_zero])

/-- Contents moved to a typed reference's buffer and back are the contents. -/
theorem ofBuf_toBuf {T : BufTy} (x : TRef sig T) (v : T.Contents (Elt F)) : x.ofBuf (x.toBuf v) = v := by
  obtain ⟨r, h, _, _⟩ := x
  subst h
  rfl

/-- The six arguments. -/
abbrev args : List (Ref sig .tc) := [main_arg0, main_arg1, main_arg2, main_arg3, main_arg4, main_arg5]

theorem x_mem : main_arg0 ∈ args := by decide
theorem e_mem : main_arg1 ∈ args := by decide
theorem w1_mem : main_arg2 ∈ args := by decide
theorem b1_mem : main_arg3 ∈ args := by decide
theorem w2_mem : main_arg4 ∈ args := by decide
theorem b2_mem : main_arg5 ∈ args := by decide

set_option hygiene false in
/-- Splits a membership in the arguments into its six cases. -/
local macro "each_arg" h:ident : tactic =>
  `(tactic| (simp only [args, List.mem_cons, List.mem_nil_iff, or_false] at $h:ident
             rcases $h:ident with rfl | rfl | rfl | rfl | rfl | rfl))

/-! ## Each stretch, from any contents

What a stretch leaves in the buffers the later stretches read, as a function of what it finds in the buffers it reads;
and that it writes no argument. -/

/-- The first product: x · W1. -/
theorem firstProduct_val (V : Valuation τ sig (Elt F)) :
    after firstProduct V (Proc.devRef .tc main_v0) = Host.dotGeneral dot_S100000x128_S128x128_S100000x128_1_0_0_1_n_n none (V (Proc.devRef .tc main_arg0)) (V (Proc.devRef .tc main_arg2)) := by
  lay_out; after_results_simp

/-- This stretch writes no argument. -/
theorem firstProduct_keeps (V : Valuation τ sig (Elt F)) {b : Ref sig .tc} (hb : b ∈ args) : after firstProduct V (Proc.devRef .tc b) = V (Proc.devRef .tc b) := by
  lay_out; each_arg hb <;> after_results_simp

/-- The sources with the self-loops. -/
theorem firstEdges_src (V : Valuation τ sig (Elt F)) : after firstEdges V (Proc.devRef .tc main_v4) = srcIdx (V (Proc.devRef .tc main_arg1)) := by
  lay_out; after_results_simp; rfl

/-- The targets with the self-loops. -/
theorem firstEdges_dst (V : Valuation τ sig (Elt F)) : after firstEdges V (Proc.devRef .tc main_v7) = dstIdx (V (Proc.devRef .tc main_arg1)) := by
  lay_out; after_results_simp; rfl

/-- The normalisation of every edge. -/
theorem firstEdges_norm (V : Valuation τ sig (Elt F)) :
    after firstEdges V (Proc.devRef .tc main_v31) = norm (srcIdx (V (Proc.devRef .tc main_arg1))) (dstIdx (V (Proc.devRef .tc main_arg1))) := by
  lay_out; after_results_simp; rfl

/-- The edge operations leave the first product alone. -/
theorem firstEdges_product (V : Valuation τ sig (Elt F)) : after firstEdges V (Proc.devRef .tc main_v0) = V (Proc.devRef .tc main_v0) := by
  lay_out; after_results_simp

/-- This stretch writes no argument. -/
theorem firstEdges_keeps (V : Valuation τ sig (Elt F)) {b : Ref sig .tc} (hb : b ∈ args) : after firstEdges V (Proc.devRef .tc b) = V (Proc.devRef .tc b) := by
  lay_out; each_arg hb <;> after_results_simp

/-- The sparse stage of the first layer. -/
theorem firstSpread_val (V : Valuation τ sig (Elt F)) :
    after firstSpread V (Proc.devRef .tc main_v44)
      = spread128 (V (Proc.devRef .tc main_v4)) (V (Proc.devRef .tc main_v7)) (V (Proc.devRef .tc main_v31)) (V (Proc.devRef .tc main_v0)) := by
  lay_out; after_results_simp; rfl

/-- This stretch writes no argument. -/
theorem firstSpread_keeps (V : Valuation τ sig (Elt F)) {b : Ref sig .tc} (hb : b ∈ args) : after firstSpread V (Proc.devRef .tc b) = V (Proc.devRef .tc b) := by
  lay_out; each_arg hb <;> after_results_simp

/-- The bias on every row, then the positive part. -/
theorem firstBias_val (V : Valuation τ sig (Elt F)) :
    after firstBias V (Proc.devRef .tc main_v48) = pos128 (addf (V (Proc.devRef .tc main_v44)) (rows128 (V (Proc.devRef .tc main_arg3)))) := by
  lay_out; after_results_simp; rfl

/-- This stretch writes no argument. -/
theorem firstBias_keeps (V : Valuation τ sig (Elt F)) {b : Ref sig .tc} (hb : b ∈ args) : after firstBias V (Proc.devRef .tc b) = V (Proc.devRef .tc b) := by
  lay_out; each_arg hb <;> after_results_simp

/-- The second product: h · W2. -/
theorem secondProduct_val (V : Valuation τ sig (Elt F)) :
    after secondProduct V (Proc.devRef .tc main_v49) = Host.dotGeneral dot_S100000x128_S128x64_S100000x64_1_0_0_1_n_n none (V (Proc.devRef .tc main_v48)) (V (Proc.devRef .tc main_arg4)) := by
  lay_out; after_results_simp

/-- This stretch writes no argument. -/
theorem secondProduct_keeps (V : Valuation τ sig (Elt F)) {b : Ref sig .tc} (hb : b ∈ args) : after secondProduct V (Proc.devRef .tc b) = V (Proc.devRef .tc b) := by
  lay_out; each_arg hb <;> after_results_simp

/-- The sources again. -/
theorem secondEdges_src (V : Valuation τ sig (Elt F)) : after secondEdges V (Proc.devRef .tc main_v53) = srcIdx (V (Proc.devRef .tc main_arg1)) := by
  lay_out; after_results_simp; rfl

/-- The targets again. -/
theorem secondEdges_dst (V : Valuation τ sig (Elt F)) : after secondEdges V (Proc.devRef .tc main_v56) = dstIdx (V (Proc.devRef .tc main_arg1)) := by
  lay_out; after_results_simp; rfl

/-- The normalisation again. -/
theorem secondEdges_norm (V : Valuation τ sig (Elt F)) :
    after secondEdges V (Proc.devRef .tc main_v80) = norm (srcIdx (V (Proc.devRef .tc main_arg1))) (dstIdx (V (Proc.devRef .tc main_arg1))) := by
  lay_out; after_results_simp; rfl

/-- The edge operations leave the second product alone. -/
theorem secondEdges_product (V : Valuation τ sig (Elt F)) : after secondEdges V (Proc.devRef .tc main_v49) = V (Proc.devRef .tc main_v49) := by
  lay_out; after_results_simp

/-- This stretch writes no argument. -/
theorem secondEdges_keeps (V : Valuation τ sig (Elt F)) {b : Ref sig .tc} (hb : b ∈ args) : after secondEdges V (Proc.devRef .tc b) = V (Proc.devRef .tc b) := by
  lay_out; each_arg hb <;> after_results_simp

/-- The sparse stage of the second layer. -/
theorem secondSpread_val (V : Valuation τ sig (Elt F)) :
    after secondSpread V (Proc.devRef .tc main_v93)
      = spread64 (V (Proc.devRef .tc main_v53)) (V (Proc.devRef .tc main_v56)) (V (Proc.devRef .tc main_v80)) (V (Proc.devRef .tc main_v49)) := by
  lay_out; after_results_simp; rfl

/-- This stretch writes no argument. -/
theorem secondSpread_keeps (V : Valuation τ sig (Elt F)) {b : Ref sig .tc} (hb : b ∈ args) : after secondSpread V (Proc.devRef .tc b) = V (Proc.devRef .tc b) := by
  lay_out; each_arg hb <;> after_results_simp

/-- The second bias on every row. -/
theorem secondBias_val (V : Valuation τ sig (Elt F)) :
    after secondBias V (Proc.devRef .tc main_v96) = addf (V (Proc.devRef .tc main_v93)) (rows64 (V (Proc.devRef .tc main_arg5))) := by
  lay_out; after_results_simp; rfl

/-- This stretch writes no argument. -/
theorem secondBias_keeps (V : Valuation τ sig (Elt F)) {b : Ref sig .tc} (hb : b ∈ args) : after secondBias V (Proc.devRef .tc b) = V (Proc.devRef .tc b) := by
  lay_out; each_arg hb <;> after_results_simp

/-- The logarithm of the softmax of every row. -/
theorem rowLogSoftmax_val (V : Valuation τ sig (Elt F)) : after rowLogSoftmax V (Proc.devRef .tc main_v97) = lsm64 (V (Proc.devRef .tc main_v96)) := by
  lay_out; after_results_simp; simp only [ofBuf_toBuf]; rfl

/-- This stretch writes no argument. -/
theorem rowLogSoftmax_keeps (V : Valuation τ sig (Elt F)) {b : Ref sig .tc} (hb : b ∈ args) : after rowLogSoftmax V (Proc.devRef .tc b) = V (Proc.devRef .tc b) := by
  lay_out; each_arg hb <;> after_results_simp

/-! ## The whole line -/

/-- No operation writes an argument. -/
theorem ops_keeps (V : Valuation τ sig (Elt F)) {b : Ref sig .tc} (hb : b ∈ args) : after (ops (F := F)) V (Proc.devRef .tc b) = V (Proc.devRef .tc b) := by
  rw [ops_split]; simp only [after_append]
  rw [rowLogSoftmax_keeps _ hb, secondBias_keeps _ hb, secondSpread_keeps _ hb, secondEdges_keeps _ hb, secondProduct_keeps _ hb,
    firstBias_keeps _ hb, firstSpread_keeps _ hb, firstEdges_keeps _ hb, firstProduct_keeps _ hb]

/-- The result buffer after the whole line is the reference's function of the six arguments: each stretch's value read
    at the contents the stretches before it leave, back to the launch contents. -/
theorem value (m : (ℓ : Loc nD τ sig) → Buf (Elt F) ℓ) (c : Dev nD) :
    after (ops (F := F)) (launchContents m c) (Proc.devRef .tc main_v97)
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [ops_split]; simp only [after_append]
  rw [rowLogSoftmax_val, secondBias_val, secondSpread_val, secondSpread_keeps _ b2_mem,
    secondEdges_src, secondEdges_dst, secondEdges_norm, secondEdges_product, secondEdges_keeps _ b2_mem,
    secondProduct_val, secondProduct_keeps _ e_mem, secondProduct_keeps _ b2_mem,
    firstBias_val, firstBias_keeps _ e_mem, firstBias_keeps _ w2_mem, firstBias_keeps _ b2_mem,
    firstSpread_val, firstSpread_keeps _ e_mem, firstSpread_keeps _ b1_mem, firstSpread_keeps _ w2_mem, firstSpread_keeps _ b2_mem,
    firstEdges_src, firstEdges_dst, firstEdges_norm, firstEdges_product,
    firstEdges_keeps _ e_mem, firstEdges_keeps _ b1_mem, firstEdges_keeps _ w2_mem, firstEdges_keeps _ b2_mem,
    firstProduct_val, firstProduct_keeps _ e_mem, firstProduct_keeps _ b1_mem, firstProduct_keeps _ w2_mem, firstProduct_keeps _ b2_mem]
  rfl

/-- On every device, from any memory with zero counters: every weakly fair execution of @main terminates with the result
    at the reference's function of the six arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v97)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v97).trans (value m c),
      (h c main_arg0).trans (ops_keeps _ x_mem), (h c main_arg1).trans (ops_keeps _ e_mem),
      (h c main_arg2).trans (ops_keeps _ w1_mem), (h c main_arg3).trans (ops_keeps _ b1_mem),
      (h c main_arg4).trans (ops_keeps _ w2_mem), (h c main_arg5).trans (ops_keeps _ b2_mem)⟩)
    (run_fold m ρ)

end Cert.Gcn.RefValue

end
-- ==== Proof.lean ====
/-
  A two-layer graph convolution with self-loops and symmetric normalisation, followed by the logarithm of the row
  softmax: the kernel program against the reference.

  Both programs build, from the edge list, the source and target lists (self-loops appended), the degrees, and the
  per-edge weight 1/sqrt(deg src) · 1/sqrt(deg dst); both gather node rows at the sources, scale them and add them at
  the targets, with the very same host operations. They differ only in the dense stages: the kernel computes X·W block
  of rows by block of rows on the matrix unit (operands cut to bf16, which is the identity over the extended reals),
  adds the bias as a one-row block and takes the positive part or the row log-softmax inside a kernel, where the
  reference uses one host product, two broadcasts and an add, and the host's log-softmax. Entry by entry each dense
  stage is the same sum, maximum or row formula on both sides (only commutativity and associativity of the sum are
  used, so no finiteness is needed), hence the results agree.

  The frames of the two kernel programs are the generated ones; the reference's is its run with the result dropped.
-/
import proofs.«161686_j69956427317969_1_alg».proof.Defs
import proofs.«161686_j69956427317969_1_alg».proof.Proof.Gen.Kernel
import proofs.«161686_j69956427317969_1_alg».proof.Proof.Gen.Kernel.Frame
import proofs.«161686_j69956427317969_1_alg».proof.Proof.Gen.KernelIdeal
import proofs.«161686_j69956427317969_1_alg».proof.Proof.Gen.KernelIdeal.Frame
import proofs.«161686_j69956427317969_1_alg».proof.Proof.Gen.ReferenceIdeal
import proofs.«161686_j69956427317969_1_alg».proof.Proof.Gen.Pre_finite_inputs
import proofs.«161686_j69956427317969_1_alg».proof.Proof.KernelRun
import proofs.«161686_j69956427317969_1_alg».proof.Proof.KernelValue
import proofs.«161686_j69956427317969_1_alg».proof.Proof.RefValue
import proofs.«161686_j69956427317969_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.Gcn.RefValue.run (F := Ideal) m ρ),
  trivial,
  fun m ρ m' ρ' _ hagree =>
    ⟨fun c => Cert.Gcn.Bridge.kernelOut Cert.KernelIdeal.Facts₀.shapeCasts_S128_S1x128 Cert.KernelIdeal.Facts₀.shapeCasts_S64_S1x64
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
      (θ_run Cert.KernelIdeal.defs _ _).mono (fun _ h c => ⟨(h c).1.trans (Cert.Gcn.KernelValue.out_W9 m ρ c), (h c).2⟩)
        (Cert.KernelIdeal.GenRun.run_out (F := Ideal) m ρ),
      (θ_run Cert.ReferenceIdeal.defs _ _).mono (fun _ h c => ⟨by
          rw [(h c).1, (hagree c).1, (hagree c).2.1, (hagree c).2.2.1, (hagree c).2.2.2.1, (hagree c).2.2.2.2.1, (hagree c).2.2.2.2.2]
          exact Cert.Gcn.Bridge.out_eq _ _ _ _ _ _ _ _, (h c).2⟩)
        (Cert.Gcn.RefValue.run (F := Ideal) m' ρ')⟩⟩

end Cert.Proof

end
